-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x3 : Shape := ⟨2, ![20000, 3]⟩
abbrev S20000x32 : Shape := ⟨2, ![20000, 32]⟩
abbrev S8192x2 : Shape := ⟨2, ![8192, 2]⟩
abbrev S3x3 : Shape := ⟨2, ![3, 3]⟩
abbrev S3x1 : Shape := ⟨2, ![3, 1]⟩
abbrev S_ : Shape := ⟨0, ![]⟩

class Facts : Prop where
  bcast_S_S20000x3 : S_.BroadcastsInDim S20000x3 (![] : Fin 0 → Fin S20000x3.rank)
  reducesTo_S20000x3_S_d0_1 : S20000x3.ReducesTo [0, 1] S_
  h_S_ : 0 < S_.numel
  bcast_S_S20000x32 : S_.BroadcastsInDim S20000x32 (![] : Fin 0 → Fin S20000x32.rank)
  reducesTo_S20000x32_S_d0_1 : S20000x32.ReducesTo [0, 1] S_
  bcast_S_S3x3 : S_.BroadcastsInDim S3x3 (![] : Fin 0 → Fin S3x3.rank)
  reducesTo_S3x3_S_d0_1 : S3x3.ReducesTo [0, 1] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg5 : FVec F S3x3 .f32) (main_arg6 : FVec F S3x1 .f32) (main_v13 : IVec S_ 1) (main_v16 : IVec S20000x32 1) : IVec S_ 1 :=
  let main_c_5 : IVec S_ 1 := constantI S_ 1 1#1
  let main_v17 : IVec S_ 1 := (fun x v => Host.reduce IntOp.andi x v reducesTo_S20000x32_S_d0_1 h_S_) main_v16 main_c_5
  let main_v18 : IVec S_ 1 := andi main_v13 main_v17
  let main_v19 : FVec F S3x3 .f32 := Host.absf main_arg5
  let main_cst_6 : FVec F S_ .f32 := constant S_ .f32 0x7F800000#32
  let main_v20 : FVec F S3x3 .f32 := broadcastInDim S3x3 ![] bcast_S_S3x3 main_cst_6
  let main_v21 : IVec S3x3 1 := cmpf .olt main_v19 main_v20
  let main_c_7 : IVec S_ 1 := constantI S_ 1 1#1
  let main_v22 : IVec S_ 1 := (fun x v => Host.reduce IntOp.andi x v reducesTo_S3x3_S_d0_1 h_S_) main_v21 main_c_7
  let main_v23 : IVec S_ 1 := andi main_v18 main_v22
  let main_v24 : FVec F S3x1 .f32 := Host.absf main_arg6
  let main_cst_8 : FVec F S_ .f32 := constant S_ .f32 0x7F800000#32
  let main_v25 : FVec F S3x1 .f32 := broadcastInDim S3x1 ![] bcast_S_S3x1 main_cst_8
  let main_v26 : IVec S3x1 1 := cmpf .olt main_v24 main_v25
  let main_c_9 : IVec S_ 1 := constantI S_ 1 1#1
  let main_v27 : IVec S_ 1 := (fun x v => Host.reduce IntOp.andi x v reducesTo_S3x1_S_d0_1 h_S_) main_v26 main_c_9
  let main_v28 : IVec S_ 1 := andi main_v23 main_v27
  main_v28

def fn {F : FTy → Type} [FloatOps F] (main_arg0 : FVec F S20000x3 .f32) (main_arg1 : FVec F S20000x3 .f32) (main_arg2 : FVec F S20000x32 .f32) (main_arg3 : FVec F S20000x32 .f32) (main_arg4 : IVec S8192x2 32) (main_arg5 : FVec F S3x3 .f32) (main_arg6 : FVec F S3x1 .f32) : IVec S_ 1 :=
  let main_v0 : FVec F S20000x3 .f32 := Host.absf main_arg0
  let main_cst : FVec F S_ .f32 := constant S_ .f32 0x7F800000#32
  let main_v1 : FVec F S20000x3 .f32 := broadcastInDim S20000x3 ![] bcast_S_S20000x3 main_cst
  let main_v2 : IVec S20000x3 1 := cmpf .olt main_v0 main_v1
  let main_c : IVec S_ 1 := constantI S_ 1 1#1
  let main_v3 : IVec S_ 1 := (fun x v => Host.reduce IntOp.andi x v reducesTo_S20000x3_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S20000x32 .f32 := Host.absf main_arg2
  let main_cst_2 : FVec F S_ .f32 := constant S_ .f32 0x7F800000#32
  let main_v10 : FVec F S20000x32 .f32 := broadcastInDim S20000x32 ![] bcast_S_S20000x32 main_cst_2
  let main_v11 : IVec S20000x32 1 := cmpf .olt main_v9 main_v10
  let main_c_3 : IVec S_ 1 := constantI S_ 1 1#1
  let main_v12 : IVec S_ 1 := (fun x v => Host.reduce IntOp.andi x v reducesTo_S20000x32_S_d0_1 h_S_) main_v11 main_c_3
  let main_v13 : IVec S_ 1 := andi main_v8 main_v12
  let main_v14 : FVec F S20000x32 .f32 := Host.absf main_arg3
  let main_cst_4 : FVec F S_ .f32 := constant S_ .f32 0x7F800000#32
  let main_v15 : FVec F S20000x32 .f32 := broadcastInDim S20000x32 ![] bcast_S_S20000x32 main_cst_4
  let main_v16 : IVec S20000x32 1 := cmpf .olt main_v14 main_v15
  fn_part1 (F := F) main_arg5 main_arg6 main_v13 main_v16
-- ==== Kernel.lean ====
abbrev S20000x3 : Shape := ⟨2, ![20000, 3]⟩
abbrev S20000x32 : Shape := ⟨2, ![20000, 32]⟩
abbrev S8192x2 : Shape := ⟨2, ![8192, 2]⟩
abbrev S3x3 : Shape := ⟨2, ![3, 3]⟩
abbrev S3x1 : Shape := ⟨2, ![3, 1]⟩
abbrev S8192x1 : Shape := ⟨2, ![8192, 1]⟩
abbrev S8192 : Shape := ⟨1, ![8192]⟩
abbrev S_ : Shape := ⟨0, ![]⟩
abbrev S8192x3 : Shape := ⟨2, ![8192, 3]⟩
abbrev S8192x32 : Shape := ⟨2, ![8192, 32]⟩
abbrev S1x3 : Shape := ⟨2, ![1, 3]⟩
abbrev S1024x3 : Shape := ⟨2, ![1024, 3]⟩
abbrev S512x3 : Shape := ⟨2, ![512, 3]⟩
abbrev S1024x32 : Shape := ⟨2, ![1024, 32]⟩
abbrev S512x32 : Shape := ⟨2, ![512, 32]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩
abbrev S3x512 : Shape := ⟨2, ![3, 512]⟩
abbrev S1024x512 : Shape := ⟨2, ![1024, 512]⟩
abbrev S32x512 : Shape := ⟨2, ![32, 512]⟩

abbrev nBuf : Space → Nat
  | .hbm => 75
  | .vmem => 14
  | .smem => 0
  | _ => 0

abbrev bufTy : (tb : Table) → Fin (tcTables nBuf tb) → BufTy
  | .hbm, ⟨0, _⟩ => ⟨S20000x3, .f32⟩
  | .hbm, ⟨1, _⟩ => ⟨S20000x3, .f32⟩
  | .hbm, ⟨2, _⟩ => ⟨S20000x32, .f32⟩
  | .hbm, ⟨3, _⟩ => ⟨S20000x32, .f32⟩
  | .hbm, ⟨4, _⟩ => ⟨S8192x2, .i32⟩
  | .hbm, ⟨5, _⟩ => ⟨S3x3, .f32⟩
  | .hbm, ⟨6, _⟩ => ⟨S3x1, .f32⟩
  | .hbm, ⟨7, _⟩ => ⟨S8192x1, .i32⟩
  | .hbm, ⟨8, _⟩ => ⟨S8192, .i32⟩
  | .hbm, ⟨9, _⟩ => ⟨S8192x1, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x3, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x3, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192x32, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x32, .f32⟩
  | .hbm, ⟨47, _⟩ => ⟨S3x3, .f32⟩
  | .hbm, ⟨48, _⟩ => ⟨S8192x3, .f32⟩
  | .hbm, ⟨49, _⟩ => ⟨S1x3, .f32⟩
  | .hbm, ⟨50, _⟩ => ⟨S8192x3, .f32⟩
  | .hbm, ⟨51, _⟩ => ⟨S8192x3, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S512x3, .f32⟩
  | .local _ .vmem, ⟨3, _⟩ => ⟨S512x3, .f32⟩
  | .local _ .vmem, ⟨4, _⟩ => ⟨S1024x32, .f32⟩
  | .local _ .vmem, ⟨5, _⟩ => ⟨S1024x32, .f32⟩
  | .local _ .vmem, ⟨6, _⟩ => ⟨S512x32, .f32⟩
  | .local _ .vmem, ⟨7, _⟩ => ⟨S512x32, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | _, _ => ⟨S20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37_0 : Ref sig .tc := ⟨.hbm, 52, rfl⟩
abbrev main_v37_1 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v72 : BitVec 1 := Scalar.cmpi .eq arg1 c15_i32
  let v73 : BitVec 32 := Scalar.extui v72
  let c0_i32_28 : BitVec 32 := 0#32
  let v74 : BitVec 1 := Scalar.cmpi .ne v73 c0_i32_28
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  transposes_S3x3_S3x3_1_0 : S3x3.Transposes [1, 0] S3x3
  transposes_S3x1_S1x3_1_0 : S3x1.Transposes [1, 0] S1x3
  bcast_S1x3_S8192x3_0_1 : S1x3.BroadcastsInDim S8192x3 (![0, 1] : Fin 2 → Fin S8192x3.rank)
  inb_S1024_S1024_0 : ∀ a, (![0] : Fin 1 → Nat) a + S1024.size a ≤ S1024.size a
  h_S1024 : 0 < S1024.numel
  shapeCasts_S1024_S1024 : S1024.ShapeCasts S1024
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  reduces_S1024x3_S1024 : S1024x3.Reduces [1] S1024
  shapeCasts_S1024_S1024x1 : S1024.ShapeCasts S1024x1
  reduces_S512x3_S512 : S512x3.Reduces [1] S512
  shapeCasts_S512_S512x1 : S512.ShapeCasts S512x1
  transposes_S512x1_p1_0_S1x512 : S512x1.Transposes [1, 0] S1x512
  transposes_S512x3_p1_0_S3x512 : S512x3.Transposes [1, 0] S3x512
  broadcasts_S1024x1_S1024x512 : S1024x1.Broadcasts S1024x512
  broadcasts_S1x512_S1024x512 : S1x512.Broadcasts S1024x512
  reduces_S1024x32_S1024 : S1024x32.Reduces [1] S1024
  reduces_S512x32_S512 : S512x32.Reduces [1] S512
  transposes_S512x32_p1_0_S32x512 : S512x32.Transposes [1, 0] S32x512
  natLt_1_32 : 1 < 32
  reduces_S1024x512_S1024 : S1024x512.Reduces [1] S1024
  reducesTo_S8192_S_d0 : S8192.ReducesTo [0] S_
  h_S_ : 0 < S_.numel
  gather_S20000x3_S8192x1_S8192x3_1_0_n_n_0_1_13_wf : GatherDims.WF S20000x3 S8192x1 S8192x3 [1] [0] [] [0] [] 1 ![1, 3]
  gather_S20000x32_S8192x1_S8192x32_1_0_n_n_0_1_132_wf : GatherDims.WF S20000x32 S8192x1 S8192x32 [1] [0] [] [0] [] 1 ![1, 32]
  dot_S8192x3_S3x3_S8192x3_1_0_0_1_n_n_wf : DotDims.WF S8192x3 S3x3 S8192x3 [1] [0] [0] [1] [] []
  dot_S1024x3_S3x512_S1024x512_1_0_0_1_n_n_wf : DotDims.WF S1024x3 S3x512 S1024x512 [1] [0] [0] [1] [] []
  dot_S1024x32_S32x512_S1024x512_1_0_0_1_n_n_wf : DotDims.WF S1024x32 S32x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S8192x3.size a
  hwx0_1 : ∀ i : grid0.Coords, EltTy.bits .f32 = 32 ∨ (Rect.block (s := S8192x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S8192x32.size a
  hwx0_3 : ∀ i : grid0.Coords, EltTy.bits .f32 = 32 ∨ (Rect.block (s := S8192x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S8192.size a
  hwx0_5 : ∀ i : grid0.Coords, EltTy.bits .f32 = 32 ∨ (Rect.block (s := S8192) S1024.size (cc0_transform_5 i) (hinb0_5 i)).WholeWords (EltTy.packing .f32)

variable [Facts₀]

def gather_S20000x3_S8192x1_S8192x3_1_0_n_n_0_1_13 : GatherDims S20000x3 S8192x1 S8192x3 where
  offsetDims := [1]
  collapsedSliceDims := [0]
  operandBatchingDims := []
  startIndicesBatchingDims := []
  startIndexMap := [0]
  indexVectorDim := 1
  sliceSizes := ![1, 3]
  wf := gather_S20000x3_S8192x1_S8192x3_1_0_n_n_0_1_13_wf
def gather_S20000x32_S8192x1_S8192x32_1_0_n_n_0_1_132 : GatherDims S20000x32 S8192x1 S8192x32 where
  offsetDims := [1]
  collapsedSliceDims := [0]
  operandBatchingDims := []
  startIndicesBatchingDims := []
  startIndexMap := [0]
  indexVectorDim := 1
  sliceSizes := ![1, 32]
  wf := gather_S20000x32_S8192x1_S8192x32_1_0_n_n_0_1_132_wf
def dot_S8192x3_S3x3_S8192x3_1_0_0_1_n_n : DotDims S8192x3 S3x3 S8192x3 where
  lhsContracting := [1]
  rhsContracting := [0]
  lhsNonContracting := [0]
  rhsNonContracting := [1]
  lhsBatch := []
  rhsBatch := []
  wf := dot_S8192x3_S3x3_S8192x3_1_0_0_1_n_n_wf
def dot_S1024x3_S3x512_S1024x512_1_0_0_1_n_n : DotDims S1024x3 S3x512 S1024x512 where
  lhsContracting := [1]
  rhsContracting := [0]
  lhsNonContracting := [0]
  rhsNonContracting := [1]
  lhsBatch := []
  rhsBatch := []
  wf := dot_S1024x3_S3x512_S1024x512_1_0_0_1_n_n_wf
def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf

abbrev win0_0 : Pipeline.Window sig grid0 :=
  Pipeline.Window.ofSpec (Memref.whole main_v36) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37_0) S1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v37_1) S1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S20000x3 : Shape := ⟨2, ![20000, 3]⟩
abbrev S20000x32 : Shape := ⟨2, ![20000, 32]⟩
abbrev S8192x2 : Shape := ⟨2, ![8192, 2]⟩
abbrev S3x3 : Shape := ⟨2, ![3, 3]⟩
abbrev S3x1 : Shape := ⟨2, ![3, 1]⟩
abbrev S3x20000 : Shape := ⟨2, ![3, 20000]⟩
abbrev S8192x1 : Shape := ⟨2, ![8192, 1]⟩
abbrev S8192 : Shape := ⟨1, ![8192]⟩
abbrev S_ : Shape := ⟨0, ![]⟩
abbrev S8192x3 : Shape := ⟨2, ![8192, 3]⟩
abbrev S8192x32 : Shape := ⟨2, ![8192, 32]⟩
abbrev S1x8192 : Shape := ⟨2, ![1, 8192]⟩
abbrev S8192x8192 : Shape := ⟨2, ![8192, 8192]⟩
abbrev S3x8192 : Shape := ⟨2, ![3, 8192]⟩
abbrev S32x8192 : Shape := ⟨2, ![32, 8192]⟩

abbrev nBuf : Space → Nat
  | .hbm => 137
  | .vmem => 0
  | .smem => 0
  | _ => 0

abbrev hbmTy0_0 (i : Nat) : BufTy := match i % 128 with
  | 0 => ⟨S20000x3, .f32⟩
  | 1 => ⟨S20000x3, .f32⟩
  | 2 => ⟨S20000x32, .f32⟩
  | 3 => ⟨S20000x32, .f32⟩
  | 4 => ⟨S8192x2, .i32⟩
  | 5 => ⟨S3x3, .f32⟩
  | 6 => ⟨S3x1, .f32⟩
  | 7 => ⟨S3x20000, .f32⟩
  | 8 => ⟨S3x20000, .f32⟩
  | 9 => ⟨S3x20000, .f32⟩
  | 10 => ⟨S3x20000, .f32⟩
  | 11 => ⟨S20000x3, .f32⟩
  | 12 => ⟨S8192x1, .i32⟩
  | 13 => ⟨S8192, .i32⟩
  | 14 => ⟨S8192x1, .i32⟩
  | 15 => ⟨S8192, .i32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x3, .f32⟩
  | 25 => ⟨S_, .i32⟩
  | 26 => ⟨S8192, .i32⟩
  | 27 => ⟨S8192, .i1⟩
  | 28 => ⟨S_, .i32⟩
  | 29 => ⟨S8192, .i32⟩
  | 30 => ⟨S8192, .i32⟩
  | 31 => ⟨S8192, .i32⟩
  | 32 => ⟨S8192x1, .i32⟩
  | 33 => ⟨S8192x3, .f32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S8192x32, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x32, .f32⟩
  | 52 => ⟨S8192x3, .f32⟩
  | 53 => ⟨S_, .f32⟩
  | 54 => ⟨S8192, .f32⟩
  | 55 => ⟨S8192x1, .f32⟩
  | 56 => ⟨S8192x3, .f32⟩
  | 57 => ⟨S_, .f32⟩
  | 58 => ⟨S8192, .f32⟩
  | 59 => ⟨S1x8192, .f32⟩
  | 60 => ⟨S8192x8192, .f32⟩
  | 61 => ⟨S8192x8192, .f32⟩
  | 62 => ⟨S8192x8192, .f32⟩
  | 63 => ⟨S_, .f32⟩
  | 64 => ⟨S8192x3, .f32⟩
  | 65 => ⟨S8192x3, .f32⟩
  | 66 => ⟨S3x8192, .f32⟩
  | 67 => ⟨S8192x8192, .f32⟩
  | 68 => ⟨S8192x8192, .f32⟩
  | 69 => ⟨S_, .f32⟩
  | 70 => ⟨S8192x8192, .f32⟩
  | 71 => ⟨S8192x8192, .f32⟩
  | 72 => ⟨S_, .f32⟩
  | 73 => ⟨S8192x8192, .f32⟩
  | 74 => ⟨S8192x8192, .f32⟩
  | 75 => ⟨S8192x8192, .f32⟩
  | 76 => ⟨S8192x32, .f32⟩
  | 77 => ⟨S_, .f32⟩
  | 78 => ⟨S8192, .f32⟩
  | 79 => ⟨S8192x1, .f32⟩
  | 80 => ⟨S8192x32, .f32⟩
  | 81 => ⟨S_, .f32⟩
  | 82 => ⟨S8192, .f32⟩
  | 83 => ⟨S1x8192, .f32⟩
  | 84 => ⟨S8192x8192, .f32⟩
  | 85 => ⟨S8192x8192, .f32⟩
  | 86 => ⟨S8192x8192, .f32⟩
  | 87 => ⟨S_, .f32⟩
  | 88 => ⟨S8192x32, .f32⟩
  | 89 => ⟨S8192x32, .f32⟩
  | 90 => ⟨S32x8192, .f32⟩
  | 91 => ⟨S8192x8192, .f32⟩
  | 92 => ⟨S8192x8192, .f32⟩
  | 93 => ⟨S_, .f32⟩
  | 94 => ⟨S8192x8192, .f32⟩
  | 95 => ⟨S8192x8192, .f32⟩
  | 96 => ⟨S_, .f32⟩
  | 97 => ⟨S8192x8192, .f32⟩
  | 98 => ⟨S8192x8192, .f32⟩
  | 99 => ⟨S8192x8192, .f32⟩
  | 100 => ⟨S_, .f32⟩
  | 101 => ⟨S8192x8192, .f32⟩
  | 102 => ⟨S8192x8192, .i1⟩
  | 103 => ⟨S_, .f32⟩
  | 104 => ⟨S8192x8192, .f32⟩
  | 105 => ⟨S8192x8192, .i1⟩
  | 106 => ⟨S8192x8192, .f32⟩
  | 107 => ⟨S8192x8192, .f32⟩
  | 108 => ⟨S_, .f32⟩
  | 109 => ⟨S8192, .f32⟩
  | 110 => ⟨S_, .f32⟩
  | 111 => ⟨S_, .f32⟩
  | 112 => ⟨S8192x8192, .f32⟩
  | 113 => ⟨S8192x8192, .f32⟩
  | 114 => ⟨S_, .f32⟩
  | 115 => ⟨S8192, .f32⟩
  | 116 => ⟨S_, .f32⟩
  | 117 => ⟨S8192, .f32⟩
  | 118 => ⟨S8192, .f32⟩
  | 119 => ⟨S_, .f32⟩
  | 120 => ⟨S8192, .f32⟩
  | 121 => ⟨S8192, .f32⟩
  | 122 => ⟨S_, .f32⟩
  | 123 => ⟨S8192, .f32⟩
  | 124 => ⟨S8192, .f32⟩
  | 125 => ⟨S_, .f32⟩
  | 126 => ⟨S8192, .f32⟩
  | 127 => ⟨S8192, .f32⟩
  | _ => ⟨S20000x3, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S20000x3, .f32⟩

abbrev hbmTy (i : Nat) : BufTy := match i / 128 with
  | 0 => hbmTy0_0 i
  | 1 => hbmTy0_1 i
  | _ => ⟨S20000x3, .f32⟩

abbrev bufTy : (tb : Table) → Fin (tcTables nBuf tb) → BufTy
  | .hbm, ⟨i, _⟩ => hbmTy i
  | _, _ => ⟨S20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_18 : Ref sig .tc := ⟨.hbm, 108, rfl⟩
abbrev main_v81 : Ref sig .tc := ⟨.hbm, 109, rfl⟩
abbrev main_cst_19 : Ref sig .tc := ⟨.hbm, 110, rfl⟩
abbrev main_call0_v0 : Ref sig .tc := ⟨.hbm, 111, rfl⟩
abbrev main_call0_v1 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_call1_cst : Ref sig .tc := ⟨.hbm, 119, rfl⟩
abbrev main_call1_v0 : Ref sig .tc := ⟨.hbm, 120, rfl⟩
abbrev main_v86 : Ref sig .tc := ⟨.hbm, 121, rfl⟩
abbrev main_cst_22 : Ref sig .tc := ⟨.hbm, 122, rfl⟩
abbrev main_v87 : Ref sig .tc := ⟨.hbm, 123, rfl⟩
abbrev main_v88 : Ref sig .tc := ⟨.hbm, 124, rfl⟩
abbrev main_call2_cst : Ref sig .tc := ⟨.hbm, 125, rfl⟩
abbrev main_call2_v0 : Ref sig .tc := ⟨.hbm, 126, rfl⟩
abbrev main_v89 : Ref sig .tc := ⟨.hbm, 127, rfl⟩
abbrev main_cst_23 : Ref sig .tc := ⟨.hbm, 128, rfl⟩
abbrev main_v90 : Ref sig .tc := ⟨.hbm, 129, rfl⟩
abbrev main_cst_24 : Ref sig .tc := ⟨.hbm, 130, rfl⟩
abbrev main_v91 : Ref sig .tc := ⟨.hbm, 131, rfl⟩
abbrev main_cst_25 : Ref sig .tc := ⟨.hbm, 132, rfl⟩
abbrev main_v92 : Ref sig .tc := ⟨.hbm, 133, rfl⟩
abbrev main_cst_26 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]

class Facts₀ : Prop where
  transposes_S20000x3_S3x20000_1_0 : S20000x3.Transposes [1, 0] S3x20000
  bcast_S3x1_S3x20000_0_1 : S3x1.BroadcastsInDim S3x20000 (![0, 1] : Fin 2 → Fin S3x20000.rank)
  transposes_S3x20000_S20000x3_1_0 : S3x20000.Transposes [1, 0] S20000x3
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x3_S8192_d1 : S8192x3.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x3 : S_.BroadcastsInDim S8192x3 (![] : Fin 0 → Fin S8192x3.rank)
  transposes_S8192x3_S3x8192_1_0 : S8192x3.Transposes [1, 0] S3x8192
  bcast_S_S8192x8192 : S_.BroadcastsInDim S8192x8192 (![] : Fin 0 → Fin S8192x8192.rank)
  reducesTo_S8192x32_S8192_d1 : S8192x32.ReducesTo [1] S8192
  bcast_S_S8192x32 : S_.BroadcastsInDim S8192x32 (![] : Fin 0 → Fin S8192x32.rank)
  transposes_S8192x32_S32x8192_1_0 : S8192x32.Transposes [1, 0] S32x8192
  reducesTo_S8192x8192_S8192_d1 : S8192x8192.ReducesTo [1] S8192
  reducesTo_S8192_S_d0 : S8192.ReducesTo [0] S_
  dot_S3x3_S3x20000_S3x20000_1_0_0_1_n_n_wf : DotDims.WF S3x3 S3x20000 S3x20000 [1] [0] [0] [1] [] []
  gather_S20000x3_S8192x1_S8192x3_1_0_n_n_0_1_13_wf : GatherDims.WF S20000x3 S8192x1 S8192x3 [1] [0] [] [0] [] 1 ![1, 3]
  gather_S20000x32_S8192x1_S8192x32_1_0_n_n_0_1_132_wf : GatherDims.WF S20000x32 S8192x1 S8192x32 [1] [0] [] [0] [] 1 ![1, 32]
  dot_S8192x3_S3x8192_S8192x8192_1_0_0_1_n_n_wf : DotDims.WF S8192x3 S3x8192 S8192x8192 [1] [0] [0] [1] [] []
  dot_S8192x32_S32x8192_S8192x8192_1_0_0_1_n_n_wf : DotDims.WF S8192x32 S32x8192 S8192x8192 [1] [0] [0] [1] [] []

variable [Facts₀]

def dot_S3x3_S3x20000_S3x20000_1_0_0_1_n_n : DotDims S3x3 S3x20000 S3x20000 where
  lhsContracting := [1]
  rhsContracting := [0]
  lhsNonContracting := [0]
  rhsNonContracting := [1]
  lhsBatch := []
  rhsBatch := []
  wf := dot_S3x3_S3x20000_S3x20000_1_0_0_1_n_n_wf
def gather_S20000x3_S8192x1_S8192x3_1_0_n_n_0_1_13 : GatherDims S20000x3 S8192x1 S8192x3 where
  offsetDims := [1]
  collapsedSliceDims := [0]
  operandBatchingDims := []
  startIndicesBatchingDims := []
  startIndexMap := [0]
  indexVectorDim := 1
  sliceSizes := ![1, 3]
  wf := gather_S20000x3_S8192x1_S8192x3_1_0_n_n_0_1_13_wf
def gather_S20000x32_S8192x1_S8192x32_1_0_n_n_0_1_132 : GatherDims S20000x32 S8192x1 S8192x32 where
  offsetDims := [1]
  collapsedSliceDims := [0]
  operandBatchingDims := []
  startIndicesBatchingDims := []
  startIndexMap := [0]
  indexVectorDim := 1
  sliceSizes := ![1, 32]
  wf := gather_S20000x32_S8192x1_S8192x32_1_0_n_n_0_1_132_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.KernelCases.lean ====
import proofs.«154625_j70995809402955_1_alg».proof.Proof.Gen.KernelIdeal.Frame
import Idealize.ShloMosaic.Lib.Pipeline.Value
import Idealize.ShloMosaic.Lib.Tactic

/-! # What each kind of grid point leaves in the two accumulators and the two outputs

A point in a row's first column tile resets both accumulators and then updates them; a point in a middle tile
updates what the point before left; a point in the last tile updates and then copies both accumulators to the
outputs.  Each is read off the stores the body's run found. -/

noncomputable section

namespace Cert.KernelIdeal.Cases

open Cert.KernelIdeal Cert.KernelIdeal.Gen
open Idealize.ShloMosaic Idealize.ShloMosaic.TcCoe Idealize.SL.Sem

variable {F : FTy → Type} [FloatOps F]
variable (c : Dev nD) (i : grid0.Coords)
  (a2 : Memref sig .tc .vmem S1024x3 .f32) (h2 : a2.IsWhole) (a3 : Memref sig .tc .vmem S512x3 .f32) (h3 : a3.IsWhole)
  (a4 : Memref sig .tc .vmem S1024x32 .f32) (h4 : a4.IsWhole) (a5 : Memref sig .tc .vmem S512x32 .f32) (h5 : a5.IsWhole)
  (a6 : Memref sig .tc .vmem S1024 .f32) (h6 : a6.IsWhole) (a7 : Memref sig .tc .vmem S1024 .f32) (h7 : a7.IsWhole)
  (a8 : Memref sig .tc .vmem S1024 .f32) (h8 : a8.IsWhole) (a9 : Memref sig .tc .vmem S1024 .f32) (h9 : a9.IsWhole)
  (x0 : Vec F S1024x3 .f32) (x1 : Vec F S512x3 .f32) (x2 : Vec F S1024x32 .f32) (x3 : Vec F S512x32 .f32)
  (xs0 xs1 : Vec F S1024 .f32)

theorem hz1 : (![0] : Fin 1 → Nat) = fun _ => 0 := funext fun a => by fin_cases a; rfl

theorem hz2 : (![0, 0] : Fin 2 → Nat) = fun _ => 0 := funext fun a => by fin_cases a <;> rfl

/-- The running maximum a point leaves, from the one it found. -/
abbrev newMax (x0 : Vec F S1024x3 .f32) (x1 : Vec F S512x3 .f32) (x2 : Vec F S1024x32 .f32) (x3 : Vec F S512x32 .f32) (xs : Vec F S1024 .f32) : Vec F S1024 .f32 :=
  k0_pay2 (k0_pay6 x2) (k0_pay8 x0 x1) (k0_pay9 x2) (k0_pay10 x3) (k0_pay11 x3) xs

/-- The running minimum a point leaves, from the one it found. -/
abbrev newMin (x0 : Vec F S1024x3 .f32) (x1 : Vec F S512x3 .f32) (x2 : Vec F S1024x32 .f32) (x3 : Vec F S512x32 .f32) (xs : Vec F S1024 .f32) : Vec F S1024 .f32 :=
  k0_pay3 (k0_pay6 x2) (k0_pay8 x0 x1) (k0_pay9 x2) (k0_pay10 x3) (k0_pay11 x3) xs

/-! ## A middle tile -/

theorem sout_B_0 (hc0 : ¬cond0_0 i) (hc1 : ¬cond0_1 i) :
    sout0_B_0 c i a2 h2 a3 h3 a4 h4 a5 h5 a6 h6 a7 h7 a8 h8 a9 h9 hc0 hc1 x0 x1 x2 x3 xs0 xs1 = newMax x0 x1 x2 x3 xs0 := by
  unfold sout0_B_0
  rw [View.read_writes_eq_canon _ _ _ (scover0_B_0 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz1]
  simp only [View.readAt_eq_ld, h2.read_unread, h3.read_unread, h4.read_unread, h5.read_unread, h8.read_unread,
    View.ld_unit_zero (S := S1024x3) hz2, View.ld_unit_zero (S := S512x3) hz2, View.ld_unit_zero (S := S1024x32) hz2,
    View.ld_unit_zero (S := S512x32) hz2, View.ld_unit_zero (S := S1024) hz1]

theorem sout_B_1 (hc0 : ¬cond0_0 i) (hc1 : ¬cond0_1 i) :
    sout0_B_1 c i a2 h2 a3 h3 a4 h4 a5 h5 a6 h6 a7 h7 a8 h8 a9 h9 hc0 hc1 x0 x1 x2 x3 xs0 xs1 = newMin x0 x1 x2 x3 xs1 := by
  unfold sout0_B_1
  rw [View.read_writes_eq_canon _ _ _ (scover0_B_1 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz1]
  simp only [View.readAt_eq_ld, h2.read_unread, h3.read_unread, h4.read_unread, h5.read_unread, h9.read_unread,
    View.ld_unit_zero (S := S1024x3) hz2, View.ld_unit_zero (S := S512x3) hz2, View.ld_unit_zero (S := S1024x32) hz2,
    View.ld_unit_zero (S := S512x32) hz2, View.ld_unit_zero (S := S1024) hz1]

/-! ## A first tile: the reset, then the update over it -/

theorem sout_A_0 (hc0 : cond0_0 i) (hc1 : ¬cond0_1 i) :
    sout0_A_0 c i a2 h2 a3 h3 a4 h4 a5 h5 a6 h6 a7 h7 a8 h8 a9 h9 hc0 hc1 x0 x1 x2 x3 = newMax x0 x1 x2 x3 k0_pay4 := by
  unfold sout0_A_0
  rw [View.read_writes_eq_canon _ _ _ (scover0_A_0 c i a2 h2 a3 h3 a4 h4 a5 h5 a6 h6 a7 h7 a8 h8 a9 h9 hc0 hc1 x0 x1 x2 x3)]
  unfold kernelRun0_A
  dsimp only
  sl_unfold_words
  rw [View.canon_cons_unit_zero (S := S1024) hz1, View.readCov_unit_zero (S := S1024) _ hz1]
  simp only [View.readAt_eq_ld, h2.read_unread, h3.read_unread, h4.read_unread, h5.read_unread,
    View.ld_unit_zero (S := S1024x3) hz2, View.ld_unit_zero (S := S512x3) hz2, View.ld_unit_zero (S := S1024x32) hz2,
    View.ld_unit_zero (S := S512x32) hz2, View.ld_unit_zero (S := S1024) hz1]

theorem sout_A_1 (hc0 : cond0_0 i) (hc1 : ¬cond0_1 i) :
    sout0_A_1 c i a2 h2 a3 h3 a4 h4 a5 h5 a6 h6 a7 h7 a8 h8 a9 h9 hc0 hc1 x0 x1 x2 x3 = newMin x0 x1 x2 x3 k0_pay5 := by
  unfold sout0_A_1
  rw [View.read_writes_eq_canon _ _ _ (scover0_A_1 c i a2 h2 a3 h3 a4 h4 a5 h5 a6 h6 a7 h7 a8 h8 a9 h9 hc0 hc1 x0 x1 x2 x3)]
  unfold kernelRun0_A
  dsimp only
  sl_unfold_words
  rw [View.canon_cons_unit_zero (S := S1024) hz1, View.readCov_unit_zero (S := S1024) _ hz1]
  simp only [View.readAt_eq_ld, h2.read_unread, h3.read_unread, h4.read_unread, h5.read_unread,
    View.ld_unit_zero (S := S1024x3) hz2, View.ld_unit_zero (S := S512x3) hz2, View.ld_unit_zero (S := S1024x32) hz2,
    View.ld_unit_zero (S := S512x32) hz2, View.ld_unit_zero (S := S1024) hz1]

/-! ## A last tile: the update, then the copy to the outputs -/

theorem sout_C_0 (hc0 : ¬cond0_0 i) (hc1 : cond0_1 i) :
    sout0_C_0 c i a2 h2 a3 h3 a4 h4 a5 h5 a6 h6 a7 h7 a8 h8 a9 h9 hc0 hc1 x0 x1 x2 x3 xs0 xs1 = newMax x0 x1 x2 x3 xs0 := by
  unfold sout0_C_0
  rw [View.read_writes_eq_canon _ _ _ (scover0_C_0 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz1]
  simp only [View.readAt_eq_ld, h2.read_unread, h3.read_unread, h4.read_unread, h5.read_unread, h8.read_unread,
    View.ld_unit_zero (S := S1024x3) hz2, View.ld_unit_zero (S := S512x3) hz2, View.ld_unit_zero (S := S1024x32) hz2,
    View.ld_unit_zero (S := S512x32) hz2, View.ld_unit_zero (S := S1024) hz1]

theorem sout_C_1 (hc0 : ¬cond0_0 i) (hc1 : cond0_1 i) :
    sout0_C_1 c i a2 h2 a3 h3 a4 h4 a5 h5 a6 h6 a7 h7 a8 h8 a9 h9 hc0 hc1 x0 x1 x2 x3 xs0 xs1 = newMin x0 x1 x2 x3 xs1 := by
  unfold sout0_C_1
  rw [View.read_writes_eq_canon _ _ _ (scover0_C_1 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz1]
  simp only [View.readAt_eq_ld, h2.read_unread, h3.read_unread, h4.read_unread, h5.read_unread, h9.read_unread,
    View.ld_unit_zero (S := S1024x3) hz2, View.ld_unit_zero (S := S512x3) hz2, View.ld_unit_zero (S := S1024x32) hz2,
    View.ld_unit_zero (S := S512x32) hz2, View.ld_unit_zero (S := S1024) hz1]

theorem out_C_4 (hc0 : ¬cond0_0 i) (hc1 : cond0_1 i) :
    out0_C_4 c i a2 h2 a3 h3 a4 h4 a5 h5 a6 h6 a7 h7 a8 h8 a9 h9 hc0 hc1 x0 x1 x2 x3 xs0 xs1 = newMax x0 x1 x2 x3 xs0 := by
  unfold out0_C_4
  rw [View.read_writes_eq_canon _ _ _ (cover0_C_4 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz1, View.readCov_unit_zero (S := S1024) _ hz1]
  simp only [View.readAt_eq_ld, h2.read_unread, h3.read_unread, h4.read_unread, h5.read_unread, h8.read_unread,
    View.ld_unit_zero (S := S1024x3) hz2, View.ld_unit_zero (S := S512x3) hz2, View.ld_unit_zero (S := S1024x32) hz2,
    View.ld_unit_zero (S := S512x32) hz2, View.ld_unit_zero (S := S1024) hz1]

theorem out_C_5 (hc0 : ¬cond0_0 i) (hc1 : cond0_1 i) :
    out0_C_5 c i a2 h2 a3 h3 a4 h4 a5 h5 a6 h6 a7 h7 a8 h8 a9 h9 hc0 hc1 x0 x1 x2 x3 xs0 xs1 = newMin x0 x1 x2 x3 xs1 := by
  unfold out0_C_5
  rw [View.read_writes_eq_canon _ _ _ (cover0_C_5 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz1, View.readCov_unit_zero (S := S1024) _ hz1]
  simp only [View.readAt_eq_ld, h2.read_unread, h3.read_unread, h4.read_unread, h5.read_unread, h9.read_unread,
    View.ld_unit_zero (S := S1024x3) hz2, View.ld_unit_zero (S := S512x3) hz2, View.ld_unit_zero (S := S1024x32) hz2,
    View.ld_unit_zero (S := S512x32) hz2, View.ld_unit_zero (S := S1024) hz1]

end Cert.KernelIdeal.Cases

end
-- ==== Proof.Spec.lean ====
import Idealize.ShloMosaic.PureOps.Ideal
import Idealize.ShloMosaic.PureOps.Ideal.Laws
import Idealize.ShloMosaic.PureOps.Contract
import Idealize.ShloMosaic.Lib.ValueIdx

/-! # The loss, as one function of the four selected arrays

Rows of two point clouds (three coordinates) and of two feature tables (thirty-two coordinates) are compared
pairwise.  For a source row `r` and a target row `c` the squared distance is written in its expanded form
`|x|² + |y|² - 2⟨x, y⟩`, clamped at zero, shifted by a small constant and rooted.  The feature distance of a pair
counts towards the row's maximum only when the pair's points are close, and towards the row's minimum only
when they are far apart; otherwise a large constant stands in.  The two row statistics are passed through a
hinge and averaged. -/

noncomputable section

namespace Cert.Hcl

open Idealize.ShloMosaic Idealize.ShloMosaic.ValueIdx

/-- A rank-two array of extended reals with `n` rows and `d` columns. -/
abbrev Arr (n d : ℕ) : Type := (⟨2, ![n, d]⟩ : Shape).Idx → EReal

/-- A rank-one array of extended reals of length `n`. -/
abbrev Row (n : ℕ) : Type := (⟨1, ![n]⟩ : Shape).Idx → EReal

/-- The scalar shape's one-element array. -/
abbrev Scal : Type := (⟨0, ![]⟩ : Shape).Idx → EReal

/-! ## The literals, kept as their binary words -/

/-- The factor two of the expanded square. -/
abbrev cTwo : EReal := Ideal.ofBits .f32 0x40000000#32
/-- Zero, the clamp of a squared distance and of a hinge. -/
abbrev cZero : EReal := Ideal.ofBits .f32 0x00000000#32
/-- The shift under the root. -/
abbrev cEps : EReal := Ideal.ofBits .f32 0x33D6BF95#32
/-- Points nearer than this make a positive pair. -/
abbrev cPosR : EReal := Ideal.ofBits .f32 0x3D19999A#32
/-- Points farther than this make a negative pair; also the positive hinge's threshold. -/
abbrev cNegR : EReal := Ideal.ofBits .f32 0x3DCCCCCD#32
/-- The stand-in for a pair that is not negative. -/
abbrev cBig : EReal := Ideal.ofBits .f32 0x47C35000#32
/-- The negative hinge's threshold. -/
abbrev cNegT : EReal := Ideal.ofBits .f32 0x3FB33333#32
/-- The number of rows, the divisor of both means. -/
abbrev cRows : EReal := Ideal.ofBits .f32 0x46000000#32

/-! ## One pair of rows -/

/-- The squared length of row `r`. -/
def sqn {n d : ℕ} (X : Arr n d) (r : Fin n) : EReal := ∑ k : Fin d, X (ix2 r k) * X (ix2 r k)

/-- The inner product of row `r` of `X` with row `c` of `Y`. -/
def dotp {n n' d : ℕ} (X : Arr n d) (Y : Arr n' d) (r : Fin n) (c : Fin n') : EReal :=
  ∑ k : Fin d, X (ix2 r k) * Y (ix2 c k)

/-- The distance of row `r` of `X` from row `c` of `Y`: the expanded square, clamped, shifted, rooted. -/
def dist {n n' d : ℕ} (X : Arr n d) (Y : Arr n' d) (r : Fin n) (c : Fin n') : EReal :=
  Ideal.sqrt (max ((sqn X r + sqn Y c) - cTwo * dotp X Y r c) cZero + cEps)

/-- A truth value as the number zero or one. -/
def ind (b : BitVec 1) : EReal := ((b.toNat : ℝ) : EReal)

/-- What the pair `(r, c)` offers to row `r`'s maximum: its feature distance if its points are close, else zero. -/
def posTerm {n n' : ℕ} (A : Arr n 3) (B : Arr n' 3) (FA : Arr n 32) (FB : Arr n' 32) (r : Fin n) (c : Fin n') : EReal :=
  dist FA FB r c * ind (Ideal.cmp .olt (dist A B r c) cPosR)

/-- What the pair `(r, c)` offers to row `r`'s minimum: its feature distance if its points are far apart, else the
    large constant. -/
def negTerm {n n' : ℕ} (A : Arr n 3) (B : Arr n' 3) (FA : Arr n 32) (FB : Arr n' 32) (r : Fin n) (c : Fin n') : EReal :=
  Scalar.select (Ideal.cmp .ogt (dist A B r c) cNegR) (dist FA FB r c) cBig

/-! ## Maxima and minima over the target rows, whole and in column tiles of 512 -/

/-- The maximum, from `-∞`, of `f` over the columns below `512 n`. -/
def maxUpTo (f : Fin 8192 → EReal) (n : ℕ) : EReal :=
  (Finset.univ.filter fun c : Fin 8192 => c.val < n * 512).fold max ⊥ f

/-- The minimum, from the large constant, of `f` over the columns below `512 n`. -/
def minUpTo (f : Fin 8192 → EReal) (n : ℕ) : EReal :=
  (Finset.univ.filter fun c : Fin 8192 => c.val < n * 512).fold min cBig f

/-- Row `r`'s furthest positive: the maximum over all target rows. -/
def fpos (A B : Arr 8192 3) (FA FB : Arr 8192 32) : Row 8192 :=
  fun r => (Finset.univ : Finset (Fin 8192)).fold max ⊥ (posTerm A B FA FB (r 0))

/-- Row `r`'s closest negative, capped by the large constant. -/
def cnegCapped (A B : Arr 8192 3) (FA FB : Arr 8192 32) : Row 8192 :=
  fun r => (Finset.univ : Finset (Fin 8192)).fold min cBig (negTerm A B FA FB (r 0))

/-- Row `r`'s closest negative, uncapped. -/
def cneg (A B : Arr 8192 3) (FA FB : Arr 8192 32) : Row 8192 :=
  fun r => (Finset.univ : Finset (Fin 8192)).fold min ⊤ (negTerm A B FA FB (r 0))

/-! ## The hinges and the two means -/

/-- The positive hinge: how far a row's furthest positive exceeds its threshold. -/
def hingePos (p : Row 8192) : Row 8192 := fun r => max (p r - cNegR) cZero

/-- The negative hinge: how far a row's closest negative falls short of its threshold. -/
def hingeNeg (q : Row 8192) : Row 8192 := fun r => max (cNegT - q r) cZero

/-- The sum of the two hinges' means, in the host's own operations. -/
def meanPair (h : (⟨1, ![8192]⟩ : Shape).ReducesTo [0] ⟨0, ![]⟩) (hu : 0 < (⟨0, ![]⟩ : Shape).numel)
    (P N : Row 8192) : Scal :=
  addf (F := Ideal) (φ := .f32)
    (Host.divf (F := Ideal) (φ := .f32)
      (Host.reduceAdd (F := Ideal) (φ := .f32) P (constant (F := Ideal) ⟨0, ![]⟩ .f32 0x00000000#32) h hu)
      (constant (F := Ideal) ⟨0, ![]⟩ .f32 0x46000000#32))
    (Host.divf (F := Ideal) (φ := .f32)
      (Host.reduceAdd (F := Ideal) (φ := .f32) N (constant (F := Ideal) ⟨0, ![]⟩ .f32 0x00000000#32) h hu)
      (constant (F := Ideal) ⟨0, ![]⟩ .f32 0x46000000#32))

/-- The loss: the mean positive hinge plus the mean negative hinge. -/
def loss (h : (⟨1, ![8192]⟩ : Shape).ReducesTo [0] ⟨0, ![]⟩) (hu : 0 < (⟨0, ![]⟩ : Shape).numel)
    (A B : Arr 8192 3) (FA FB : Arr 8192 32) : Scal :=
  meanPair h hu (hingePos (fpos A B FA FB)) (hingeNeg (cneg A B FA FB))

end Cert.Hcl

end
-- ==== Proof.SpecLaws.lean ====
import proofs.«154625_j70995809402955_1_alg».proof.Proof.Spec

/-! # Laws of the specification

The algebra the two programs' agreement rests on: a factor two moves into an inner product; a pair's terms depend
only on the two rows they name; a maximum (a minimum) over all columns is built tile by tile; a minimum capped
by a constant above the hinge's threshold has the hinge of the uncapped one. -/

noncomputable section

namespace Cert.Hcl

open Idealize.ShloMosaic Idealize.ShloMosaic.ValueIdx

/-- The zero word is the number zero. -/
theorem cZero_eq : cZero = 0 := by
  exact Ideal.ofBits_zero_f32

/-- A one-bit word widened to thirty-two bits and read as a signed integer is the bit's number. -/
theorem sitofp_extui (b : BitVec 1) :
    (FloatOps.sitofp (F := Ideal) .f32 (b.setWidth 32) : EReal) = ind b := by
  have h : ∀ b : BitVec 1, (b.setWidth 32).toInt = (b.toNat : ℤ) := by decide
  show (((b.setWidth 32).toInt : ℝ) : EReal) = ((b.toNat : ℝ) : EReal)
  rw [h b, Int.cast_natCast]

/-- A one-bit word read as an unsigned integer is the bit's number. -/
theorem uitofp_bit (b : BitVec 1) : (FloatOps.uitofp (F := Ideal) .f32 b : EReal) = ind b := by
  rfl

/-- The factor two moves into the inner product, onto the left factor of every term. -/
theorem two_mul_dotp {n n' d : ℕ} (X : Arr n d) (Y : Arr n' d) (r : Fin n) (c : Fin n') :
    cTwo * dotp X Y r c = ∑ k : Fin d, (cTwo * X (ix2 r k)) * Y (ix2 c k) := by
  have hTwo : cTwo = ((2 : ℝ) : EReal) := by
    simp [cTwo, Ideal.ofBits, Ideal.ieee, -EReal.coe_mul]; norm_num
  have h0 : (0 : EReal) ≤ cTwo := by rw [hTwo]; exact_mod_cast (by norm_num : (0 : ℝ) ≤ 2)
  have hT : cTwo ≠ ⊤ := by rw [hTwo]; exact EReal.coe_ne_top 2
  have key : ∀ (s : Finset (Fin d)) (g : Fin d → EReal), cTwo * ∑ k ∈ s, g k = ∑ k ∈ s, cTwo * g k := by
    intro s g
    induction s using Finset.induction_on with
    | empty => simp
    | insert a s ha ih =>
      rw [Finset.sum_insert ha, Finset.sum_insert ha, EReal.left_distrib_of_nonneg_of_ne_top h0 hT, ih]
  unfold dotp
  rw [key]
  exact Finset.sum_congr rfl fun k _ => (mul_assoc _ _ _).symm

/-- A squared length depends only on its row. -/
theorem sqn_congr {n m d : ℕ} (X : Arr n d) (X' : Arr m d) (r : Fin n) (r' : Fin m)
    (hX : ∀ k : Fin d, X (ix2 r k) = X' (ix2 r' k)) : sqn X r = sqn X' r' := by
  simp only [sqn, hX]

/-- A distance depends only on its two rows. -/
theorem dist_congr {n n' m m' d : ℕ} (X : Arr n d) (Y : Arr n' d) (X' : Arr m d) (Y' : Arr m' d)
    (r : Fin n) (c : Fin n') (r' : Fin m) (c' : Fin m')
    (hX : ∀ k : Fin d, X (ix2 r k) = X' (ix2 r' k)) (hY : ∀ k : Fin d, Y (ix2 c k) = Y' (ix2 c' k)) :
    dist X Y r c = dist X' Y' r' c' := by
  have h1 : sqn X r = sqn X' r' := sqn_congr X X' r r' hX
  have h2 : sqn Y c = sqn Y' c' := sqn_congr Y Y' c c' hY
  have h3 : dotp X Y r c = dotp X' Y' r' c' := by simp only [dotp, hX, hY]
  simp only [dist, h1, h2, h3]

/-- A pair's offer to the maximum depends only on the pair's four rows. -/
theorem posTerm_congr {n n' m m' : ℕ} (A : Arr n 3) (B : Arr n' 3) (FA : Arr n 32) (FB : Arr n' 32)
    (A' : Arr m 3) (B' : Arr m' 3) (FA' : Arr m 32) (FB' : Arr m' 32)
    (r : Fin n) (c : Fin n') (r' : Fin m) (c' : Fin m')
    (hA : ∀ k : Fin 3, A (ix2 r k) = A' (ix2 r' k)) (hB : ∀ k : Fin 3, B (ix2 c k) = B' (ix2 c' k))
    (hFA : ∀ k : Fin 32, FA (ix2 r k) = FA' (ix2 r' k)) (hFB : ∀ k : Fin 32, FB (ix2 c k) = FB' (ix2 c' k)) :
    posTerm A B FA FB r c = posTerm A' B' FA' FB' r' c' := by
  simp only [posTerm, dist_congr A B A' B' r c r' c' hA hB, dist_congr FA FB FA' FB' r c r' c' hFA hFB]

/-- A pair's offer to the minimum depends only on the pair's four rows. -/
theorem negTerm_congr {n n' m m' : ℕ} (A : Arr n 3) (B : Arr n' 3) (FA : Arr n 32) (FB : Arr n' 32)
    (A' : Arr m 3) (B' : Arr m' 3) (FA' : Arr m 32) (FB' : Arr m' 32)
    (r : Fin n) (c : Fin n') (r' : Fin m) (c' : Fin m')
    (hA : ∀ k : Fin 3, A (ix2 r k) = A' (ix2 r' k)) (hB : ∀ k : Fin 3, B (ix2 c k) = B' (ix2 c' k))
    (hFA : ∀ k : Fin 32, FA (ix2 r k) = FA' (ix2 r' k)) (hFB : ∀ k : Fin 32, FB (ix2 c k) = FB' (ix2 c' k)) :
    negTerm A B FA FB r c = negTerm A' B' FA' FB' r' c' := by
  simp only [negTerm, dist_congr A B A' B' r c r' c' hA hB, dist_congr FA FB FA' FB' r c r' c' hFA hFB]

/-- Over no columns the maximum is `-∞`. -/
theorem maxUpTo_zero (f : Fin 8192 → EReal) : maxUpTo f 0 = ⊥ := by
  simp [maxUpTo]

/-- One more tile of 512 columns: the maximum so far against the tile's own maximum. -/
theorem maxUpTo_succ (f : Fin 8192 → EReal) (n : ℕ) (hn : n < 16) :
    maxUpTo f (n + 1) = max (maxUpTo f n)
      ((Finset.univ : Finset (Fin 512)).fold max ⊥ fun q => f ⟨n * 512 + q.val, by omega⟩) := by
  apply eq_of_forall_ge_iff
  intro c
  simp only [maxUpTo, Finset.fold_max_le, max_le_iff, Finset.mem_filter, Finset.mem_univ, true_and, bot_le]
  constructor
  · intro h
    exact ⟨fun x hx => h x (by omega), fun q _ => h ⟨n * 512 + q.val, by omega⟩ (by show n * 512 + q.val < (n + 1) * 512; omega)⟩
  · rintro ⟨h1, h2⟩ x hx
    by_cases hlt : x.val < n * 512
    · exact h1 x hlt
    · have h3 := h2 ⟨x.val - n * 512, by omega⟩ trivial
      have h4 : (⟨n * 512 + (x.val - n * 512), by omega⟩ : Fin 8192) = x := by
        apply Fin.ext; show n * 512 + (x.val - n * 512) = x.val; omega
      rw [h4] at h3
      exact h3

/-- Sixteen tiles are all the columns. -/
theorem maxUpTo_full (f : Fin 8192 → EReal) :
    maxUpTo f 16 = (Finset.univ : Finset (Fin 8192)).fold max ⊥ f := by
  have h : (Finset.univ.filter fun c : Fin 8192 => c.val < 16 * 512) = Finset.univ := by
    apply Finset.filter_true_of_mem
    intro c _
    omega
  rw [maxUpTo, h]

/-- Over no columns the capped minimum is the cap. -/
theorem minUpTo_zero (f : Fin 8192 → EReal) : minUpTo f 0 = cBig := by
  simp [minUpTo]

/-- One more tile of 512 columns: the minimum so far against the tile's own minimum, taken from `+∞`. -/
theorem minUpTo_succ (f : Fin 8192 → EReal) (n : ℕ) (hn : n < 16) :
    minUpTo f (n + 1) = min (minUpTo f n)
      ((Finset.univ : Finset (Fin 512)).fold min ⊤ fun q => f ⟨n * 512 + q.val, by omega⟩) := by
  apply eq_of_forall_le_iff
  intro c
  simp only [minUpTo, Finset.le_fold_min, le_min_iff, Finset.mem_filter, Finset.mem_univ, true_and, le_top]
  constructor
  · rintro ⟨hb, h⟩
    exact ⟨⟨hb, fun x hx => h x (by omega)⟩, fun q _ => h ⟨n * 512 + q.val, by omega⟩ (by show n * 512 + q.val < (n + 1) * 512; omega)⟩
  · rintro ⟨⟨hb, h1⟩, h2⟩
    refine ⟨hb, fun x hx => ?_⟩
    by_cases hlt : x.val < n * 512
    · exact h1 x hlt
    · have h3 := h2 ⟨x.val - n * 512, by omega⟩ trivial
      have h4 : (⟨n * 512 + (x.val - n * 512), by omega⟩ : Fin 8192) = x := by
        apply Fin.ext; show n * 512 + (x.val - n * 512) = x.val; omega
      rw [h4] at h3
      exact h3

/-- Sixteen tiles are all the columns. -/
theorem minUpTo_full (f : Fin 8192 → EReal) :
    minUpTo f 16 = (Finset.univ : Finset (Fin 8192)).fold min cBig f := by
  have h : (Finset.univ.filter fun c : Fin 8192 => c.val < 16 * 512) = Finset.univ := by
    apply Finset.filter_true_of_mem
    intro c _
    omega
  rw [minUpTo, h]

/-- The hinge of a minimum capped by the large constant is the hinge of the uncapped minimum: the cap lies above
    the hinge's threshold, so wherever the cap bites both hinges are zero. -/
theorem hingeNeg_capped (A B : Arr 8192 3) (FA FB : Arr 8192 32) :
    hingeNeg (cnegCapped A B FA FB) = hingeNeg (cneg A B FA FB) := by
  have hN : cNegT = ((11744051 / 8388608 : ℝ) : EReal) := by
    simp [cNegT, Ideal.ofBits, Ideal.ieee, -EReal.coe_mul]; norm_num
  have hB : cBig = ((100000 : ℝ) : EReal) := by
    simp [cBig, Ideal.ofBits, Ideal.ieee, -EReal.coe_mul]; norm_num
  have hNB : cNegT - cBig ≤ 0 := by
    rw [hN, hB, ← EReal.coe_sub]
    exact_mod_cast (by norm_num : (11744051 / 8388608 : ℝ) - 100000 ≤ 0)
  have hZ : cZero = 0 := cZero_eq
  have hcap : ∀ g : Fin 8192 → EReal,
      (Finset.univ : Finset (Fin 8192)).fold min cBig g
        = min cBig ((Finset.univ : Finset (Fin 8192)).fold min ⊤ g) := by
    intro g
    apply eq_of_forall_le_iff
    intro c
    simp only [Finset.le_fold_min, le_min_iff, le_top, true_and]
  have hm : ∀ m : EReal, max (cNegT - min cBig m) cZero = max (cNegT - m) cZero := by
    intro m
    rcases le_or_gt m cBig with hle | hgt
    · rw [min_eq_right hle]
    · rw [min_eq_left hgt.le, hZ]
      have h1 : cNegT - m ≤ 0 := le_trans (EReal.sub_le_sub le_rfl hgt.le) hNB
      rw [max_eq_right hNB, max_eq_right h1]
  funext r
  show max (cNegT - cnegCapped A B FA FB r) cZero = max (cNegT - cneg A B FA FB r) cZero
  rw [show cnegCapped A B FA FB r = min cBig (cneg A B FA FB r) from hcap _]
  exact hm _

end Cert.Hcl

end
-- ==== Proof.KernelTile.lean ====
import proofs.«154625_j70995809402955_1_alg».proof.Proof.Gen.KernelIdeal.Skeleton
import proofs.«154625_j70995809402955_1_alg».proof.Proof.SpecLaws
import Idealize.ShloMosaic.PureOps.Ideal.Laws
import Idealize.ShloMosaic.Lib.Pipeline.Value
import Idealize.ShloMosaic.Lib.ValueIdx
import Idealize.ShloMosaic.Lib.ValueLayout

/-! # One grid point's arithmetic, row by row

At a grid point the body holds 1024 source rows and 512 target rows.  Its two stores into the carried
accumulators are, at source row `p`: the old maximum against the maximum over the tile's 512 target rows of the
pair's offer, and the old minimum against the tile's minimum. -/

noncomputable section

namespace Cert.KernelIdeal.Tile

open Cert.KernelIdeal Cert.KernelIdeal.Gen Cert.Hcl
open Idealize.ShloMosaic Idealize.ShloMosaic.ValueIdx

variable [Facts]

/-! ## Layout operations on one-column matrices, read at coordinates -/

section Layout
variable {α : Type}

/-- A vector cast to a one-column matrix reads, at `(i, u)`, the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its unit axis reads, at `(p, c)`, the column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row index over `p` with column `k` inserted is `(p, k)`. -/
private theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

end Layout

/-- A row sum of a matrix read at row `p`. -/
private theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- A row maximum of a matrix read at row `p`. -/
private theorem rowMax_apply {a b : ℕ} (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (p : Fin a) :
    multiReduction (F := Ideal) .maximumf [1] ⟨1, ![a]⟩ src acc h hφ hacc (ix1 p)
      = (Finset.univ : Finset (Fin b)).fold max (Ideal.ofBits .f32 acc) fun k => src (ix2 p k) :=
  (Ideal.multiReduction_maximumf_single src _ h hφ hacc (ix1 p)).trans
    (congrArg (Finset.fold max _ · _) (funext fun k => congrArg src (lift_row h p k)))

/-- A row minimum of a matrix read at row `p`. -/
private theorem rowMin_apply {a b : ℕ} (src : FVec Ideal ⟨2, ![a, b]⟩ .f32) (acc : BitVec 32) (h : (⟨2, ![a, b]⟩ : Shape).Reduces [1] ⟨1, ![a]⟩)
    (hφ : FKind.Formats .f32) (hacc : acc = FKind.minimumf.neutral .f32 hφ) (p : Fin a) :
    multiReduction (F := Ideal) .minimumf [1] ⟨1, ![a]⟩ src acc h hφ hacc (ix1 p)
      = (Finset.univ : Finset (Fin b)).fold min (Ideal.ofBits .f32 acc) fun k => src (ix2 p k) := by
  rw [multiReduction_minimumf_eq_fold]
  refine (h.fold_filter_drop_single _ _ src (ix1 p)).trans ?_
  exact congrArg (Finset.fold min _ · _) (funext fun k => congrArg src (lift_row h p k))

/-! ## The two matrix products read at an index -/

private theorem lhs_pts_0 (i : S1024x512.Idx) (q : dot_S1024x3_S3x512_S1024x512_1_0_0_1_n_n.contr.Idx) :
    (dot_S1024x3_S3x512_S1024x512_1_0_0_1_n_n.lhsIdx i q 0).val = (i 0).val := by
  unfold DotDims.lhsIdx
  rw [dif_neg (show ¬(0 : Fin S1024x3.rank) ∈ dot_S1024x3_S3x512_S1024x512_1_0_0_1_n_n.lhsBatch by decide), dif_pos (show (0 : Fin S1024x3.rank) ∈ dot_S1024x3_S3x512_S1024x512_1_0_0_1_n_n.lhsNonContracting by decide)]
  rfl
private theorem lhs_pts_1 (i : S1024x512.Idx) (q : dot_S1024x3_S3x512_S1024x512_1_0_0_1_n_n.contr.Idx) :
    (dot_S1024x3_S3x512_S1024x512_1_0_0_1_n_n.lhsIdx i q 1).val = (q ⟨0, by decide⟩).val :=
  dot_S1024x3_S3x512_S1024x512_1_0_0_1_n_n.lhsIdx_val_of_single rfl i q
private theorem rhs_pts_0 (i : S1024x512.Idx) (q : dot_S1024x3_S3x512_S1024x512_1_0_0_1_n_n.contr.Idx) :
    (dot_S1024x3_S3x512_S1024x512_1_0_0_1_n_n.rhsIdx i q 0).val = (q ⟨0, by decide⟩).val :=
  dot_S1024x3_S3x512_S1024x512_1_0_0_1_n_n.rhsIdx_val_of_single rfl i q
private theorem rhs_pts_1 (i : S1024x512.Idx) (q : dot_S1024x3_S3x512_S1024x512_1_0_0_1_n_n.contr.Idx) :
    (dot_S1024x3_S3x512_S1024x512_1_0_0_1_n_n.rhsIdx i q 1).val = (i 1).val := by
  unfold DotDims.rhsIdx
  rw [dif_neg (show ¬(1 : Fin S3x512.rank) ∈ dot_S1024x3_S3x512_S1024x512_1_0_0_1_n_n.rhsBatch by decide), dif_pos (show (1 : Fin S3x512.rank) ∈ dot_S1024x3_S3x512_S1024x512_1_0_0_1_n_n.rhsNonContracting by decide)]
  rfl

/-- The product of a `1024 × 3` by a `3 × 512` matrix into the zero accumulator, read at `(p, q)`. -/
private theorem matmul_pts_apply (y0 : FVec Ideal S1024x3 .f32) (y1 : FVec Ideal S3x512 .f32) (p : Fin 1024) (q : Fin 512) :
    matmul (F := Ideal) dot_S1024x3_S3x512_S1024x512_1_0_0_1_n_n (some .fp32) y0 y1 (constant (F := Ideal) S1024x512 .f32 0x00000000#32) (ix2 p q)
      = ∑ k : Fin 3, y0 (ix2 p k) * y1 (ix2 k q) := by
  simp only [matmul]
  rw [Ideal.matmul_constant_zero_apply, ← Equiv.sum_comp (ValueIdx.contrEquiv1 dot_S1024x3_S3x512_S1024x512_1_0_0_1_n_n 3 rfl rfl).symm]
  refine Finset.sum_congr rfl fun k _ => ?_
  have hk := ValueIdx.contrEquiv1_symm_val dot_S1024x3_S3x512_S1024x512_1_0_0_1_n_n 3 rfl rfl k
  have el : dot_S1024x3_S3x512_S1024x512_1_0_0_1_n_n.lhsIdx (ix2 p q) ((ValueIdx.contrEquiv1 dot_S1024x3_S3x512_S1024x512_1_0_0_1_n_n 3 rfl rfl).symm k) = ix2 p k := funext fun a => Fin.ext (by
    match a with
    | ⟨0, _⟩ => exact lhs_pts_0 _ _
    | ⟨1, _⟩ => exact (lhs_pts_1 _ _).trans hk)
  have er : dot_S1024x3_S3x512_S1024x512_1_0_0_1_n_n.rhsIdx (ix2 p q) ((ValueIdx.contrEquiv1 dot_S1024x3_S3x512_S1024x512_1_0_0_1_n_n 3 rfl rfl).symm k) = ix2 k q := funext fun a => Fin.ext (by
    match a with
    | ⟨0, _⟩ => exact (rhs_pts_0 _ _).trans hk
    | ⟨1, _⟩ => exact rhs_pts_1 _ _)
  rw [el, er]

private theorem lhs_fts_0 (i : S1024x512.Idx) (q : dot_S1024x32_S32x512_S1024x512_1_0_0_1_n_n.contr.Idx) :
    (dot_S1024x32_S32x512_S1024x512_1_0_0_1_n_n.lhsIdx i q 0).val = (i 0).val := by
  unfold DotDims.lhsIdx
  rw [dif_neg (show ¬(0 : Fin S1024x32.rank) ∈ dot_S1024x32_S32x512_S1024x512_1_0_0_1_n_n.lhsBatch by decide), dif_pos (show (0 : Fin S1024x32.rank) ∈ dot_S1024x32_S32x512_S1024x512_1_0_0_1_n_n.lhsNonContracting by decide)]
  rfl
private theorem lhs_fts_1 (i : S1024x512.Idx) (q : dot_S1024x32_S32x512_S1024x512_1_0_0_1_n_n.contr.Idx) :
    (dot_S1024x32_S32x512_S1024x512_1_0_0_1_n_n.lhsIdx i q 1).val = (q ⟨0, by decide⟩).val :=
  dot_S1024x32_S32x512_S1024x512_1_0_0_1_n_n.lhsIdx_val_of_single rfl i q
private theorem rhs_fts_0 (i : S1024x512.Idx) (q : dot_S1024x32_S32x512_S1024x512_1_0_0_1_n_n.contr.Idx) :
    (dot_S1024x32_S32x512_S1024x512_1_0_0_1_n_n.rhsIdx i q 0).val = (q ⟨0, by decide⟩).val :=
  dot_S1024x32_S32x512_S1024x512_1_0_0_1_n_n.rhsIdx_val_of_single rfl i q
private theorem rhs_fts_1 (i : S1024x512.Idx) (q : dot_S1024x32_S32x512_S1024x512_1_0_0_1_n_n.contr.Idx) :
    (dot_S1024x32_S32x512_S1024x512_1_0_0_1_n_n.rhsIdx i q 1).val = (i 1).val := by
  unfold DotDims.rhsIdx
  rw [dif_neg (show ¬(1 : Fin S32x512.rank) ∈ dot_S1024x32_S32x512_S1024x512_1_0_0_1_n_n.rhsBatch by decide), dif_pos (show (1 : Fin S32x512.rank) ∈ dot_S1024x32_S32x512_S1024x512_1_0_0_1_n_n.rhsNonContracting by decide)]
  rfl

/-- The product of a `1024 × 32` by a `32 × 512` matrix into the zero accumulator, read at `(p, q)`. -/
private theorem matmul_fts_apply (y0 : FVec Ideal S1024x32 .f32) (y1 : FVec Ideal S32x512 .f32) (p : Fin 1024) (q : Fin 512) :
    matmul (F := Ideal) dot_S1024x32_S32x512_S1024x512_1_0_0_1_n_n (some .fp32) y0 y1 (constant (F := Ideal) S1024x512 .f32 0x00000000#32) (ix2 p q)
      = ∑ k : Fin 32, y0 (ix2 p k) * y1 (ix2 k q) := by
  simp only [matmul]
  rw [Ideal.matmul_constant_zero_apply, ← Equiv.sum_comp (ValueIdx.contrEquiv1 dot_S1024x32_S32x512_S1024x512_1_0_0_1_n_n 32 rfl rfl).symm]
  refine Finset.sum_congr rfl fun k _ => ?_
  have hk := ValueIdx.contrEquiv1_symm_val dot_S1024x32_S32x512_S1024x512_1_0_0_1_n_n 32 rfl rfl k
  have el : dot_S1024x32_S32x512_S1024x512_1_0_0_1_n_n.lhsIdx (ix2 p q) ((ValueIdx.contrEquiv1 dot_S1024x32_S32x512_S1024x512_1_0_0_1_n_n 32 rfl rfl).symm k) = ix2 p k := funext fun a => Fin.ext (by
    match a with
    | ⟨0, _⟩ => exact lhs_fts_0 _ _
    | ⟨1, _⟩ => exact (lhs_fts_1 _ _).trans hk)
  have er : dot_S1024x32_S32x512_S1024x512_1_0_0_1_n_n.rhsIdx (ix2 p q) ((ValueIdx.contrEquiv1 dot_S1024x32_S32x512_S1024x512_1_0_0_1_n_n 32 rfl rfl).symm k) = ix2 k q := funext fun a => Fin.ext (by
    match a with
    | ⟨0, _⟩ => exact (rhs_fts_0 _ _).trans hk
    | ⟨1, _⟩ => exact rhs_fts_1 _ _)
  rw [el, er]

/-! ## The distance of a pair of rows, as the body forms it -/

/-- The column of squared row lengths, spread over the columns, reads at `(p, c)` the squared length of row `p`. -/
private theorem sqnCol_apply {a b d : ℕ} (X : FVec Ideal ⟨2, ![a, d]⟩ .f32)
    (hr : (⟨2, ![a, d]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩
        (multiReduction (F := Ideal) .add [1] ⟨1, ![a]⟩ (mulf X X) 0x00000000#32 hr hφ hacc) hc) hb (ix2 p c)
      = sqn X p := by
  rw [broadcastTo_a1_ab_apply, shapeCast_a_a1_apply, rowSum_apply]
  rfl

/-- The row of squared row lengths (the column, transposed), spread over the rows, reads at `(p, c)` the squared
    length of row `c`. -/
private theorem sqnRow_apply {a b d : ℕ} (Y : FVec Ideal ⟨2, ![b, d]⟩ .f32)
    (hr : (⟨2, ![b, d]⟩ : Shape).Reduces [1] ⟨1, ![b]⟩) (hφ : FKind.Formats .f32)
    (hacc : (0x00000000#32 : BitVec 32) = FKind.add.neutral .f32 hφ)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (p : Fin a) (c : Fin b) :
    broadcastTo ⟨2, ![a, b]⟩ (transpose ⟨2, ![1, b]⟩ [1, 0] (shapeCast ⟨2, ![b, 1]⟩
        (multiReduction (F := Ideal) .add [1] ⟨1, ![b]⟩ (mulf Y Y) 0x00000000#32 hr hφ hacc) hc) ht) hb (ix2 p c)
      = sqn Y c := by
  rw [broadcastTo_1b_ab_apply, transpose_ix2_apply, shapeCast_a_a1_apply, rowSum_apply]
  rfl

/-- The distance assembled from its three parts. -/
private theorem dist_of_parts {n n' d : ℕ} (X : Arr n d) (Y : Arr n' d) (r : Fin n) (c : Fin n') (s1 s2 m : EReal)
    (h1 : s1 = sqn X r) (h2 : s2 = sqn Y c) (h3 : m = dotp X Y r c) :
    Ideal.sqrt (max ((s1 + s2) - cTwo * m) cZero + cEps) = dist X Y r c := by
  subst h1 h2 h3; rfl

/-- The point distance of the pair `(p, q)`. -/
private theorem pay8_apply (x0 : Vec Ideal S1024x3 .f32) (x1 : Vec Ideal S512x3 .f32) (p : Fin 1024) (q : Fin 512) :
    (k0_pay8 (F := Ideal) x0 x1 : S1024x512.Idx → EReal) (ix2 p q) = dist x0 x1 p q := by
  unfold k0_pay8
  simp only [shapeCast_self]
  refine dist_of_parts x0 x1 p q _ _ _ (sqnCol_apply x0 _ _ _ _ _ p q) (sqnRow_apply x1 _ _ _ _ _ _ p q) ?_
  refine (matmul_pts_apply _ _ p q).trans (Finset.sum_congr rfl fun k _ => ?_)
  rw [transpose_ix2_apply]

/-- The feature distance of the pair `(p, q)`, from the carried column, row and transposed table. -/
private theorem pay1_apply (x2 : Vec Ideal S1024x32 .f32) (x3 : Vec Ideal S512x32 .f32) (p : Fin 1024) (q : Fin 512) :
    (k0_pay1 (F := Ideal) (k0_pay6 x2) (k0_pay9 x2) (k0_pay10 x3) (k0_pay11 x3) : S1024x512.Idx → EReal) (ix2 p q)
      = dist x2 x3 p q := by
  unfold k0_pay1 k0_pay9 k0_pay10 k0_pay11 k0_pay6 k0_pay7
  simp only [shapeCast_self]
  refine dist_of_parts x2 x3 p q _ _ _ (sqnCol_apply x2 _ _ _ _ _ p q) (sqnRow_apply x3 _ _ _ _ _ _ p q) ?_
  refine (matmul_fts_apply _ _ p q).trans (Finset.sum_congr rfl fun k _ => ?_)
  rw [transpose_ix2_apply]

/-! ## The two infinity words -/

private theorem ofBits_negInf : Ideal.ofBits .f32 0xFF800000#32 = ⊥ := by simp [Ideal.ofBits, Ideal.ieee]
private theorem ofBits_posInf : Ideal.ofBits .f32 0x7F800000#32 = ⊤ := by simp [Ideal.ofBits, Ideal.ieee]

/-! ## The four stored values -/

/-- The reset value of the running maximum is `-∞` in every row. -/
theorem pay4_apply (p : Fin 1024) : (k0_pay4 (F := Ideal) : S1024.Idx → EReal) (ix1 p) = ⊥ := by
  unfold k0_pay4
  simp only [shapeCast_self]
  exact ofBits_negInf

/-- The reset value of the running minimum is the large constant in every row. -/
theorem pay5_apply (p : Fin 1024) : (k0_pay5 (F := Ideal) : S1024.Idx → EReal) (ix1 p) = cBig := by
  unfold k0_pay5
  simp only [shapeCast_self]
  rfl

/-- The stored running maximum at source row `p`: the old one against the tile's. -/
theorem pay2_apply (x0 : Vec Ideal S1024x3 .f32) (x1 : Vec Ideal S512x3 .f32) (x2 : Vec Ideal S1024x32 .f32)
    (x3 : Vec Ideal S512x32 .f32) (xs : Vec Ideal S1024 .f32) (p : Fin 1024) :
    (k0_pay2 (F := Ideal) (k0_pay6 x2) (k0_pay8 x0 x1) (k0_pay9 x2) (k0_pay10 x3) (k0_pay11 x3) xs : S1024.Idx → EReal) (ix1 p)
      = max (xs (ix1 p)) ((Finset.univ : Finset (Fin 512)).fold max ⊥ fun q => posTerm x0 x1 x2 x3 p q) := by
  unfold k0_pay2
  simp only [shapeCast_self]
  rw [maximumf_apply]
  refine congrArg (max (xs (ix1 p))) ((rowMax_apply _ _ _ _ _ p).trans ?_)
  rw [ofBits_negInf]
  refine congrArg (Finset.fold max ⊥ · _) (funext fun q => ?_)
  rw [mulf_apply, pay1_apply, sitofp_apply, extui_apply, cmpf_apply, broadcast_apply, pay8_apply, sitofp_extui]
  rfl

/-- The stored running minimum at source row `p`: the old one against the tile's. -/
theorem pay3_apply (x0 : Vec Ideal S1024x3 .f32) (x1 : Vec Ideal S512x3 .f32) (x2 : Vec Ideal S1024x32 .f32)
    (x3 : Vec Ideal S512x32 .f32) (xs : Vec Ideal S1024 .f32) (p : Fin 1024) :
    (k0_pay3 (F := Ideal) (k0_pay6 x2) (k0_pay8 x0 x1) (k0_pay9 x2) (k0_pay10 x3) (k0_pay11 x3) xs : S1024.Idx → EReal) (ix1 p)
      = min (xs (ix1 p)) ((Finset.univ : Finset (Fin 512)).fold min ⊤ fun q => negTerm x0 x1 x2 x3 p q) := by
  unfold k0_pay3
  simp only [shapeCast_self]
  rw [minimumf_apply]
  refine congrArg (min (xs (ix1 p))) ((rowMin_apply _ _ _ _ _ p).trans ?_)
  rw [ofBits_posInf]
  refine congrArg (Finset.fold min ⊤ · _) (funext fun q => ?_)
  rw [select_apply, cmpf_apply, broadcast_apply, broadcast_apply, pay1_apply, pay8_apply]
  rfl

end Cert.KernelIdeal.Tile

end
-- ==== Proof.KernelAccum.lean ====
import proofs.«154625_j70995809402955_1_alg».proof.Proof.Gen.KernelIdeal.Frame
import proofs.«154625_j70995809402955_1_alg».proof.Proof.KernelCases
import proofs.«154625_j70995809402955_1_alg».proof.Proof.KernelTile
import proofs.«154625_j70995809402955_1_alg».proof.Proof.SpecLaws
import Idealize.ShloMosaic.Lib.Pipeline.Value
import Idealize.ShloMosaic.PureOps.Ideal

/-! # The accumulators point by point, and the two result arrays

Grid point `t` works on source rows `1024 (t / 16) …` and target rows `512 (t % 16) …`.  After it the running
maximum of source row `R` is the maximum, from `-∞`, of the pairs' offers over the target rows below
`512 (t % 16 + 1)`, and the running minimum the minimum from the large constant over the same rows: by induction
on the point.  The last point of each row block copies both to the outputs, so the two result arrays are the
row maxima and the capped row minima over all target rows. -/

noncomputable section

namespace Cert.KernelIdeal.Accum

open Cert.KernelIdeal Cert.KernelIdeal.Gen Cert.KernelIdeal.Cases Cert.KernelIdeal.Tile Cert.Hcl
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The four arrays the call reads, and their blocks -/

abbrev arrA (c : Dev nD) : Arr 8192 3 := V m c main_v36
abbrev arrB (c : Dev nD) : Arr 8192 3 := V m c main_v17
abbrev arrFA (c : Dev nD) : Arr 8192 32 := V m c main_v24
abbrev arrFB (c : Dev nD) : Arr 8192 32 := V m c main_v31

abbrev blkA (c : Dev nD) (t : Fin cfg0.N) : Vec Ideal S1024x3 .f32 := iblk m c 0 t
abbrev blkB (c : Dev nD) (t : Fin cfg0.N) : Vec Ideal S512x3 .f32 := iblk m c 1 t
abbrev blkFA (c : Dev nD) (t : Fin cfg0.N) : Vec Ideal S1024x32 .f32 := iblk m c 2 t
abbrev blkFB (c : Dev nD) (t : Fin cfg0.N) : Vec Ideal S512x32 .f32 := iblk m c 3 t

theorem hN : cfg0.N = 128 := N_0

/-- The printed index maps over the grid: the source windows and the outputs follow `t / 16`, the target windows `t % 16`. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 1) = t.val / 16 ∧ win0_5.index t (0 : Fin 1) = t.val / 16 :=
  (by decide +kernel : ∀ t : Fin grid0.N, _)

/-- The source row of the whole arrays that block row `p` of point `t` is. -/
abbrev rowOf (t : Fin cfg0.N) (p : Fin 1024) : Fin 8192 :=
  ⟨t.val / 16 * 1024 + p.val, by have := t.isLt; have := hN; omega⟩

/-- The target row of the whole arrays that block row `q` of point `t` is. -/
abbrev colOf (t : Fin cfg0.N) (q : Fin 512) : Fin 8192 :=
  ⟨t.val % 16 * 512 + q.val, by omega⟩

theorem blkA_apply (c : Dev nD) (t : Fin cfg0.N) (p : Fin 1024) (k : Fin 3) :
    blkA m c t (ix2 p k) = arrA m c (ix2 (rowOf t p) k) := by
  obtain ⟨e0, e1, -⟩ := idx_facts t
  show V m c main_v36 (((cfg0.win 0).blk t).view.emb (ix2 p k)) = V m c main_v36 (ix2 (rowOf t p) k)
  congr 1
  funext a; apply Fin.ext
  match a with
  | ⟨0, _⟩ => show win0_0.index t (0 : Fin 2) * 1024 + 1 * p.val = t.val / 16 * 1024 + p.val; omega
  | ⟨1, _⟩ => show win0_0.index t (1 : Fin 2) * 3 + 1 * k.val = k.val; omega

theorem blkB_apply (c : Dev nD) (t : Fin cfg0.N) (q : Fin 512) (k : Fin 3) :
    blkB m c t (ix2 q k) = arrB m c (ix2 (colOf t q) k) := by
  obtain ⟨-, -, e0, e1, -⟩ := idx_facts t
  show V m c main_v17 (((cfg0.win 1).blk t).view.emb (ix2 q k)) = V m c main_v17 (ix2 (colOf t q) k)
  congr 1
  funext a; apply Fin.ext
  match a with
  | ⟨0, _⟩ => show win0_1.index t (0 : Fin 2) * 512 + 1 * q.val = t.val % 16 * 512 + q.val; omega
  | ⟨1, _⟩ => show win0_1.index t (1 : Fin 2) * 3 + 1 * k.val = k.val; omega

theorem blkFA_apply (c : Dev nD) (t : Fin cfg0.N) (p : Fin 1024) (k : Fin 32) :
    blkFA m c t (ix2 p k) = arrFA m c (ix2 (rowOf t p) k) := by
  obtain ⟨-, -, -, -, e0, e1, -⟩ := idx_facts t
  show V m c main_v24 (((cfg0.win 2).blk t).view.emb (ix2 p k)) = V m c main_v24 (ix2 (rowOf t p) k)
  congr 1
  funext a; apply Fin.ext
  match a with
  | ⟨0, _⟩ => show win0_2.index t (0 : Fin 2) * 1024 + 1 * p.val = t.val / 16 * 1024 + p.val; omega
  | ⟨1, _⟩ => show win0_2.index t (1 : Fin 2) * 32 + 1 * k.val = k.val; omega

theorem blkFB_apply (c : Dev nD) (t : Fin cfg0.N) (q : Fin 512) (k : Fin 32) :
    blkFB m c t (ix2 q k) = arrFB m c (ix2 (colOf t q) k) := by
  obtain ⟨-, -, -, -, -, -, e0, e1, -⟩ := idx_facts t
  show V m c main_v31 (((cfg0.win 3).blk t).view.emb (ix2 q k)) = V m c main_v31 (ix2 (colOf t q) k)
  congr 1
  funext a; apply Fin.ext
  match a with
  | ⟨0, _⟩ => show win0_3.index t (0 : Fin 2) * 512 + 1 * q.val = t.val % 16 * 512 + q.val; omega
  | ⟨1, _⟩ => show win0_3.index t (1 : Fin 2) * 32 + 1 * k.val = k.val; omega

/-! ## One point's step -/

/-- What the pairs of source row `R` offer to its maximum, over all target rows. -/
abbrev gmax (c : Dev nD) (R : Fin 8192) : Fin 8192 → EReal := posTerm (arrA m c) (arrB m c) (arrFA m c) (arrFB m c) R

/-- What the pairs of source row `R` offer to its minimum, over all target rows. -/
abbrev gmin (c : Dev nD) (R : Fin 8192) : Fin 8192 → EReal := negTerm (arrA m c) (arrB m c) (arrFA m c) (arrFB m c) R

theorem tile_pos (c : Dev nD) (t : Fin cfg0.N) (p : Fin 1024) (q : Fin 512) :
    posTerm (blkA m c t) (blkB m c t) (blkFA m c t) (blkFB m c t) p q = gmax m c (rowOf t p) (colOf t q) :=
  posTerm_congr _ _ _ _ _ _ _ _ p q (rowOf t p) (colOf t q) (blkA_apply m c t p) (blkB_apply m c t q)
    (blkFA_apply m c t p) (blkFB_apply m c t q)

theorem tile_neg (c : Dev nD) (t : Fin cfg0.N) (p : Fin 1024) (q : Fin 512) :
    negTerm (blkA m c t) (blkB m c t) (blkFA m c t) (blkFB m c t) p q = gmin m c (rowOf t p) (colOf t q) :=
  negTerm_congr _ _ _ _ _ _ _ _ p q (rowOf t p) (colOf t q) (blkA_apply m c t p) (blkB_apply m c t q)
    (blkFA_apply m c t p) (blkFB_apply m c t q)

/-- A point's update of the running maximum adds its tile to the columns already seen: over any blocks whose rows
    are rows of the whole arrays. -/
theorem step_max_of (x0 : Vec Ideal S1024x3 .f32) (x1 : Vec Ideal S512x3 .f32) (x2 : Vec Ideal S1024x32 .f32)
    (x3 : Vec Ideal S512x32 .f32) (xs : Vec Ideal S1024 .f32) (A B : Arr 8192 3) (FA FB : Arr 8192 32)
    (R : Fin 8192) (n : ℕ) (hn : n < 16) (p : Fin 1024)
    (hA : ∀ k : Fin 3, x0 (ix2 p k) = A (ix2 R k))
    (hB : ∀ (q : Fin 512) (k : Fin 3), x1 (ix2 q k) = B (ix2 (⟨n * 512 + q.val, by omega⟩ : Fin 8192) k))
    (hFA : ∀ k : Fin 32, x2 (ix2 p k) = FA (ix2 R k))
    (hFB : ∀ (q : Fin 512) (k : Fin 32), x3 (ix2 q k) = FB (ix2 (⟨n * 512 + q.val, by omega⟩ : Fin 8192) k))
    (hxs : xs (ix1 p) = maxUpTo (posTerm A B FA FB R) n) :
    (newMax x0 x1 x2 x3 xs : S1024.Idx → EReal) (ix1 p) = maxUpTo (posTerm A B FA FB R) (n + 1) := by
  rw [maxUpTo_succ _ _ hn, ← hxs]
  refine (pay2_apply x0 x1 x2 x3 xs p).trans ?_
  have hf : (fun q : Fin 512 => posTerm x0 x1 x2 x3 p q)
      = fun q : Fin 512 => posTerm A B FA FB R (⟨n * 512 + q.val, by omega⟩ : Fin 8192) :=
    funext fun q => posTerm_congr x0 x1 x2 x3 A B FA FB p q R _ hA (hB q) hFA (hFB q)
  rw [hf]

/-- The same for the running minimum. -/
theorem step_min_of (x0 : Vec Ideal S1024x3 .f32) (x1 : Vec Ideal S512x3 .f32) (x2 : Vec Ideal S1024x32 .f32)
    (x3 : Vec Ideal S512x32 .f32) (xs : Vec Ideal S1024 .f32) (A B : Arr 8192 3) (FA FB : Arr 8192 32)
    (R : Fin 8192) (n : ℕ) (hn : n < 16) (p : Fin 1024)
    (hA : ∀ k : Fin 3, x0 (ix2 p k) = A (ix2 R k))
    (hB : ∀ (q : Fin 512) (k : Fin 3), x1 (ix2 q k) = B (ix2 (⟨n * 512 + q.val, by omega⟩ : Fin 8192) k))
    (hFA : ∀ k : Fin 32, x2 (ix2 p k) = FA (ix2 R k))
    (hFB : ∀ (q : Fin 512) (k : Fin 32), x3 (ix2 q k) = FB (ix2 (⟨n * 512 + q.val, by omega⟩ : Fin 8192) k))
    (hxs : xs (ix1 p) = minUpTo (negTerm A B FA FB R) n) :
    (newMin x0 x1 x2 x3 xs : S1024.Idx → EReal) (ix1 p) = minUpTo (negTerm A B FA FB R) (n + 1) := by
  rw [minUpTo_succ _ _ hn, ← hxs]
  refine (pay3_apply x0 x1 x2 x3 xs p).trans ?_
  have hf : (fun q : Fin 512 => negTerm x0 x1 x2 x3 p q)
      = fun q : Fin 512 => negTerm A B FA FB R (⟨n * 512 + q.val, by omega⟩ : Fin 8192) :=
    funext fun q => negTerm_congr x0 x1 x2 x3 A B FA FB p q R _ hA (hB q) hFA (hFB q)
  rw [hf]

/-- At point `t`: the update of the running maximum. -/
theorem step_max (c : Dev nD) (t : Fin cfg0.N) (p : Fin 1024) (xs : Vec Ideal S1024 .f32)
    (hxs : xs (ix1 p) = maxUpTo (gmax m c (rowOf t p)) (t.val % 16)) :
    (newMax (blkA m c t) (blkB m c t) (blkFA m c t) (blkFB m c t) xs : S1024.Idx → EReal) (ix1 p) = maxUpTo (gmax m c (rowOf t p)) (t.val % 16 + 1) :=
  step_max_of (blkA m c t) (blkB m c t) (blkFA m c t) (blkFB m c t) xs (arrA m c) (arrB m c) (arrFA m c) (arrFB m c) (rowOf t p) (t.val % 16)
    (Nat.mod_lt _ (by decide)) p (blkA_apply m c t p) (blkB_apply m c t) (blkFA_apply m c t p) (blkFB_apply m c t) hxs

/-- At point `t`: the update of the running minimum. -/
theorem step_min (c : Dev nD) (t : Fin cfg0.N) (p : Fin 1024) (xs : Vec Ideal S1024 .f32)
    (hxs : xs (ix1 p) = minUpTo (gmin m c (rowOf t p)) (t.val % 16)) :
    (newMin (blkA m c t) (blkB m c t) (blkFA m c t) (blkFB m c t) xs : S1024.Idx → EReal) (ix1 p) = minUpTo (gmin m c (rowOf t p)) (t.val % 16 + 1) :=
  step_min_of (blkA m c t) (blkB m c t) (blkFA m c t) (blkFB m c t) xs (arrA m c) (arrB m c) (arrFA m c) (arrFB m c) (rowOf t p) (t.val % 16)
    (Nat.mod_lt _ (by decide)) p (blkA_apply m c t p) (blkB_apply m c t) (blkFA_apply m c t p) (blkFB_apply m c t) hxs

/-! ## What each kind of point leaves -/

theorem at_first (c : Dev nD) (t : Fin cfg0.N) (h0 : t.val % 16 = 0) (h1 : ¬t.val % 16 = 15) :
    (outsAt0 m c t.val t.isLt).2.2.1 = newMax (blkA m c t) (blkB m c t) (blkFA m c t) (blkFB m c t) (k0_pay4 (F := Ideal))
    ∧ (outsAt0 m c t.val t.isLt).2.2.2 = newMin (blkA m c t) (blkB m c t) (blkFA m c t) (blkFB m c t) (k0_pay5 (F := Ideal)) := by
  rw [outsAt0_A m c t h0 h1]
  dsimp only
  exact ⟨sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h)),
    sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))⟩

theorem at_middle (c : Dev nD) (t : Fin cfg0.N) (h0 : ¬t.val % 16 = 0) (h1 : ¬t.val % 16 = 15) :
    (outsAt0 m c t.val t.isLt).2.2.1 = newMax (blkA m c t) (blkB m c t) (blkFA m c t) (blkFB m c t) (outsAt0 m c (t.val - 1) (Nat.lt_of_le_of_lt (Nat.sub_le _ _) t.isLt)).2.2.1
    ∧ (outsAt0 m c t.val t.isLt).2.2.2 = newMin (blkA m c t) (blkB m c t) (blkFA m c t) (blkFB m c t) (outsAt0 m c (t.val - 1) (Nat.lt_of_le_of_lt (Nat.sub_le _ _) t.isLt)).2.2.2 := by
  rw [outsAt0_B m c t h0 h1]
  dsimp only
  exact ⟨sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
    sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))⟩

theorem at_last (c : Dev nD) (t : Fin cfg0.N) (h0 : ¬t.val % 16 = 0) (h1 : t.val % 16 = 15) :
    (outsAt0 m c t.val t.isLt).2.2.1 = newMax (blkA m c t) (blkB m c t) (blkFA m c t) (blkFB m c t) (outsAt0 m c (t.val - 1) (Nat.lt_of_le_of_lt (Nat.sub_le _ _) t.isLt)).2.2.1
    ∧ (outsAt0 m c t.val t.isLt).2.2.2 = newMin (blkA m c t) (blkB m c t) (blkFA m c t) (blkFB m c t) (outsAt0 m c (t.val - 1) (Nat.lt_of_le_of_lt (Nat.sub_le _ _) t.isLt)).2.2.2
    ∧ (outsAt0 m c t.val t.isLt).1 = newMax (blkA m c t) (blkB m c t) (blkFA m c t) (blkFB m c t) (outsAt0 m c (t.val - 1) (Nat.lt_of_le_of_lt (Nat.sub_le _ _) t.isLt)).2.2.1
    ∧ (outsAt0 m c t.val t.isLt).2.1 = newMin (blkA m c t) (blkB m c t) (blkFA m c t) (blkFB m c t) (outsAt0 m c (t.val - 1) (Nat.lt_of_le_of_lt (Nat.sub_le _ _) t.isLt)).2.2.2 := by
  rw [outsAt0_C m c t h0 h1]
  dsimp only
  exact ⟨sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    out_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)⟩

/-! ## The induction over the points -/

/-- After point `t` both accumulators hold, at block row `p`, the statistics of source row `rowOf t p` over the
    target rows below `512 (t % 16 + 1)`. -/
def Inv (c : Dev nD) (t : Fin cfg0.N) : Prop :=
  (∀ p : Fin 1024, ((outsAt0 m c t.val t.isLt).2.2.1 : S1024.Idx → EReal) (ix1 p)
      = maxUpTo (gmax m c (rowOf t p)) (t.val % 16 + 1))
  ∧ ∀ p : Fin 1024, ((outsAt0 m c t.val t.isLt).2.2.2 : S1024.Idx → EReal) (ix1 p)
      = minUpTo (gmin m c (rowOf t p)) (t.val % 16 + 1)

/-- A point that is not the first of its row block continues the row block of the point before. -/
theorem rowOf_pred (n : ℕ) (hn : n + 1 < cfg0.N) (h0 : ¬(n + 1) % 16 = 0) (p : Fin 1024) :
    rowOf ⟨n, Nat.lt_of_succ_lt hn⟩ p = rowOf ⟨n + 1, hn⟩ p := by
  apply Fin.ext
  show n / 16 * 1024 + p.val = (n + 1) / 16 * 1024 + p.val
  omega

theorem inv_first (c : Dev nD) (t : Fin cfg0.N) (h0 : t.val % 16 = 0) : Inv m c t := by
  have h1 : ¬t.val % 16 = 15 := by omega
  obtain ⟨e0, e1⟩ := at_first m c t h0 h1
  refine ⟨fun p => ?_, fun p => ?_⟩
  · rw [e0]
    exact step_max m c t p (k0_pay4 (F := Ideal)) (by rw [pay4_apply, h0]; exact (maxUpTo_zero _).symm)
  · rw [e1]
    exact step_min m c t p (k0_pay5 (F := Ideal)) (by rw [pay5_apply, h0]; exact (minUpTo_zero _).symm)

theorem inv_all (c : Dev nD) : ∀ (n : ℕ) (hn : n < cfg0.N), Inv m c ⟨n, hn⟩
  | 0, hn => inv_first m c ⟨0, hn⟩ rfl
  | n + 1, hn => by
    by_cases h0 : (n + 1) % 16 = 0
    · exact inv_first m c ⟨n + 1, hn⟩ h0
    · have ih := inv_all c n (Nat.lt_of_succ_lt hn)
      have hmax : ∀ p : Fin 1024, ((outsAt0 m c n (Nat.lt_of_succ_lt hn)).2.2.1 : S1024.Idx → EReal) (ix1 p)
          = maxUpTo (gmax m c (rowOf ⟨n + 1, hn⟩ p)) ((n + 1) % 16) := fun p => by
        rw [ih.1 p, rowOf_pred n hn h0 p]
        congr 1
        show n % 16 + 1 = (n + 1) % 16
        omega
      have hmin : ∀ p : Fin 1024, ((outsAt0 m c n (Nat.lt_of_succ_lt hn)).2.2.2 : S1024.Idx → EReal) (ix1 p)
          = minUpTo (gmin m c (rowOf ⟨n + 1, hn⟩ p)) ((n + 1) % 16) := fun p => by
        rw [ih.2 p, rowOf_pred n hn h0 p]
        congr 1
        show n % 16 + 1 = (n + 1) % 16
        omega
      by_cases h1 : (n + 1) % 16 = 15
      · obtain ⟨e0, e1, -, -⟩ := at_last m c ⟨n + 1, hn⟩ h0 h1
        refine ⟨fun p => ?_, fun p => ?_⟩
        · rw [e0]; exact step_max m c ⟨n + 1, hn⟩ p _ (hmax p)
        · rw [e1]; exact step_min m c ⟨n + 1, hn⟩ p _ (hmin p)
      · obtain ⟨e0, e1⟩ := at_middle m c ⟨n + 1, hn⟩ h0 h1
        refine ⟨fun p => ?_, fun p => ?_⟩
        · rw [e0]; exact step_max m c ⟨n + 1, hn⟩ p _ (hmax p)
        · rw [e1]; exact step_min m c ⟨n + 1, hn⟩ p _ (hmin p)

/-! ## The two result arrays -/

/-- Every source row's furthest positive, over the arrays the call reads. -/
abbrev fposK (c : Dev nD) : Row 8192 := fpos (arrA m c) (arrB m c) (arrFA m c) (arrFB m c)

/-- Every source row's closest negative, capped, over the arrays the call reads. -/
abbrev cnegK (c : Dev nD) : Row 8192 := cnegCapped (arrA m c) (arrB m c) (arrFA m c) (arrFB m c)

theorem out4_at_last (c : Dev nD) (t : Fin cfg0.N) (h1 : t.val % 16 = 15) (p : Fin 1024) :
    ((outsAt0 m c t.val t.isLt).1 : S1024.Idx → EReal) (ix1 p) = fposK m c (ix1 (rowOf t p)) := by
  have h0 : ¬t.val % 16 = 0 := by omega
  obtain ⟨e0, e1, e2, e3⟩ := at_last m c t h0 h1
  rw [e2, ← e0, (inv_all m c t.val t.isLt).1 p, h1]
  exact maxUpTo_full _

theorem mem_blk4 (t : Fin cfg0.N) (i : S8192.Idx) :
    i ∈ ((cfg0.win 4).blk t).view.set ↔ ∀ a : Fin 1, win0_4.index t a * S1024.size a ≤ (i a).val ∧ (i a).val < win0_4.index t a * S1024.size a + S1024.size a := by
  show i ∈ ((View.whole main_v37_0).slice (win0_4.rect t)).set ↔ _
  rw [View.set_slice_whole, Rect.mem_set_unit]
  exact Iff.rfl

/-- What a row block's last point writes back is that block of the row statistics. -/
theorem flushed4_eq (c : Dev nD) (t : Fin cfg0.N) (hf : (cfg0.win 4).flush t = true) :
    (dats m 0 c).flushed 4 t = ((cfg0.win 4).blk t).view.read (Elt Ideal) (fposK m c) := by
  have h1 : t.val % 16 = 15 := (flush0_4 t).mp hf
  obtain ⟨-, -, -, -, -, -, -, -, e4, e5⟩ := idx_facts t
  show (cfg0.win 4).cut (grid0.coords t) ((dats m 0 c).after 4 t) = _
  rw [after0_4]
  funext y
  obtain ⟨p, rfl⟩ : ∃ p : Fin 1024, y = ix1 p := ⟨y 0, eq_ix1 y⟩
  show ((outsAt0 m c t.val t.isLt).1 : S1024.Idx → EReal) (ix1 p) = fposK m c (((cfg0.win 4).blk t).view.emb (ix1 p))
  rw [out4_at_last m c t h1 p]
  congr 1
  funext a; apply Fin.ext
  match a with
  | ⟨0, _⟩ => show t.val / 16 * 1024 + p.val = win0_4.index t (0 : Fin 1) * 1024 + 1 * p.val; omega

/-- Every row lies in the block of its row block's last point. -/
theorem cover4 (i : S8192.Idx) :
    ∃ t : Fin cfg0.N, (cfg0.win 4).flush t = true ∧ i ∈ ((cfg0.win 4).blk t).view.set := by
  have hi : (i 0).val < 8192 := (i 0).isLt
  have hN' := hN
  refine ⟨⟨(i 0).val / 1024 * 16 + 15, by omega⟩, (flush0_4 _).mpr (by show ((i 0).val / 1024 * 16 + 15) % 16 = 15; omega), ?_⟩
  rw [mem_blk4]
  intro a
  obtain ⟨-, -, -, -, -, -, -, -, e4, e5⟩ := idx_facts ⟨(i 0).val / 1024 * 16 + 15, by omega⟩
  match a with
  | ⟨0, _⟩ =>
    show win0_4.index _ (0 : Fin 1) * 1024 ≤ (i 0).val ∧ (i 0).val < win0_4.index _ (0 : Fin 1) * 1024 + 1024
    rw [e4]
    show ((i 0).val / 1024 * 16 + 15) / 16 * 1024 ≤ (i 0).val ∧ (i 0).val < ((i 0).val / 1024 * 16 + 15) / 16 * 1024 + 1024
    omega

/-- The result array after the run. -/
theorem final4 (c : Dev nD) : (dats m 0 c).arrAt 4 cfg0.N = fposK m c :=
  (dats m 0 c).arrAt_eq_of_cover 4 (fposK m c) (flushed4_eq m c) cover4

theorem out5_at_last (c : Dev nD) (t : Fin cfg0.N) (h1 : t.val % 16 = 15) (p : Fin 1024) :
    ((outsAt0 m c t.val t.isLt).2.1 : S1024.Idx → EReal) (ix1 p) = cnegK m c (ix1 (rowOf t p)) := by
  have h0 : ¬t.val % 16 = 0 := by omega
  obtain ⟨e0, e1, e2, e3⟩ := at_last m c t h0 h1
  rw [e3, ← e1, (inv_all m c t.val t.isLt).2 p, h1]
  exact minUpTo_full _

theorem mem_blk5 (t : Fin cfg0.N) (i : S8192.Idx) :
    i ∈ ((cfg0.win 5).blk t).view.set ↔ ∀ a : Fin 1, win0_5.index t a * S1024.size a ≤ (i a).val ∧ (i a).val < win0_5.index t a * S1024.size a + S1024.size a := by
  show i ∈ ((View.whole main_v37_1).slice (win0_5.rect t)).set ↔ _
  rw [View.set_slice_whole, Rect.mem_set_unit]
  exact Iff.rfl

/-- What a row block's last point writes back is that block of the row statistics. -/
theorem flushed5_eq (c : Dev nD) (t : Fin cfg0.N) (hf : (cfg0.win 5).flush t = true) :
    (dats m 0 c).flushed 5 t = ((cfg0.win 5).blk t).view.read (Elt Ideal) (cnegK m c) := by
  have h1 : t.val % 16 = 15 := (flush0_5 t).mp hf
  obtain ⟨-, -, -, -, -, -, -, -, e4, e5⟩ := idx_facts t
  show (cfg0.win 5).cut (grid0.coords t) ((dats m 0 c).after 5 t) = _
  rw [after0_5]
  funext y
  obtain ⟨p, rfl⟩ : ∃ p : Fin 1024, y = ix1 p := ⟨y 0, eq_ix1 y⟩
  show ((outsAt0 m c t.val t.isLt).2.1 : S1024.Idx → EReal) (ix1 p) = cnegK m c (((cfg0.win 5).blk t).view.emb (ix1 p))
  rw [out5_at_last m c t h1 p]
  congr 1
  funext a; apply Fin.ext
  match a with
  | ⟨0, _⟩ => show t.val / 16 * 1024 + p.val = win0_5.index t (0 : Fin 1) * 1024 + 1 * p.val; omega

/-- Every row lies in the block of its row block's last point. -/
theorem cover5 (i : S8192.Idx) :
    ∃ t : Fin cfg0.N, (cfg0.win 5).flush t = true ∧ i ∈ ((cfg0.win 5).blk t).view.set := by
  have hi : (i 0).val < 8192 := (i 0).isLt
  have hN' := hN
  refine ⟨⟨(i 0).val / 1024 * 16 + 15, by omega⟩, (flush0_5 _).mpr (by show ((i 0).val / 1024 * 16 + 15) % 16 = 15; omega), ?_⟩
  rw [mem_blk5]
  intro a
  obtain ⟨-, -, -, -, -, -, -, -, e4, e5⟩ := idx_facts ⟨(i 0).val / 1024 * 16 + 15, by omega⟩
  match a with
  | ⟨0, _⟩ =>
    show win0_5.index _ (0 : Fin 1) * 1024 ≤ (i 0).val ∧ (i 0).val < win0_5.index _ (0 : Fin 1) * 1024 + 1024
    rw [e5]
    show ((i 0).val / 1024 * 16 + 15) / 16 * 1024 ≤ (i 0).val ∧ (i 0).val < ((i 0).val / 1024 * 16 + 15) / 16 * 1024 + 1024
    omega

/-- The result array after the run. -/
theorem final5 (c : Dev nD) : (dats m 0 c).arrAt 5 cfg0.N = cnegK m c :=
  (dats m 0 c).arrAt_eq_of_cover 5 (cnegK m c) (flushed5_eq m c) cover5

end Cert.KernelIdeal.Accum

end
-- ==== Proof.KernelHost.lean ====
import proofs.«154625_j70995809402955_1_alg».proof.Proof.Gen.KernelIdeal.Frame
import Idealize.ShloMosaic.Lib.StableHlo.Run

/-! # What the kernel's host lines hand to the call

Before the call the program picks, for each of the 8192 index pairs, a row of each table (a negative index first
moved up by the table's length), and moves the picked source points by the rotation and the shift.  These are the
four arrays the call's windows are cut from. -/

noncomputable section

namespace Cert.KernelIdeal.HostVal

open Cert.KernelIdeal Cert.KernelIdeal.Gen
open Idealize.ShloMosaic Idealize.ShloMosaic.TcCoe Idealize.SL.Sem Idealize.ShloMosaic.StableHlo

variable {F : FTy → Type} [FloatOps F]

/-- Column `j` of the index pairs as a flat array. -/
def col (j : Fin 2 → Nat) (hs : S8192x2.Slices j S8192x1) (x4 : (⟨S8192x2, .i32⟩ : BufTy).Contents (Elt F)) : (⟨S8192, .i32⟩ : BufTy).Contents (Elt F) :=
  fun i => shapeCast S8192 (extractStridedSlice S8192x1 j x4 hs) shapeCasts_S8192x1_S8192 i

/-- A flat index array with every negative entry moved up by 20000, as one column. -/
def wrapped (v : (⟨S8192, .i32⟩ : BufTy).Contents (Elt F)) : (⟨S8192x1, .i32⟩ : BufTy).Contents (Elt F) :=
  broadcastInDim S8192x1 ![0] bcast_S8192_S8192x1_0
    (select (cmpi CmpIPredicate.slt v (broadcastInDim S8192 ![] bcast_S_S8192 (constantI S_ 32 0#32)))
      (addi v (broadcastInDim S8192 ![] bcast_S_S8192 (constantI S_ 32 20000#32))) v)

/-- The picked source points, moved: rotated and shifted. -/
def srcPts (x0 : (⟨S20000x3, .f32⟩ : BufTy).Contents (Elt F)) (x4 : (⟨S8192x2, .i32⟩ : BufTy).Contents (Elt F)) (x5 : (⟨S3x3, .f32⟩ : BufTy).Contents (Elt F)) (x6 : (⟨S3x1, .f32⟩ : BufTy).Contents (Elt F)) :
    (⟨S8192x3, .f32⟩ : BufTy).Contents (Elt F) :=
  addf
    (Host.dotGeneral dot_S8192x3_S3x3_S8192x3_1_0_0_1_n_n none
      (Host.gather gather_S20000x3_S8192x1_S8192x3_1_0_n_n_0_1_13 x0 (wrapped (col ![0, 0] slices_S8192x2_S8192x1_0_0 x4)))
      (transpose S3x3 [1, 0] x5 transposes_S3x3_S3x3_1_0))
    (broadcastInDim S8192x3 ![0, 1] bcast_S1x3_S8192x3_0_1 (transpose S1x3 [1, 0] x6 transposes_S3x1_S1x3_1_0))

/-- The picked target points. -/
def tgtPts (x1 : (⟨S20000x3, .f32⟩ : BufTy).Contents (Elt F)) (x4 : (⟨S8192x2, .i32⟩ : BufTy).Contents (Elt F)) : (⟨S8192x3, .f32⟩ : BufTy).Contents (Elt F) :=
  Host.gather gather_S20000x3_S8192x1_S8192x3_1_0_n_n_0_1_13 x1 (wrapped (col ![0, 1] slices_S8192x2_S8192x1_0_1 x4))

/-- The picked source features. -/
def srcFeat (x2 : (⟨S20000x32, .f32⟩ : BufTy).Contents (Elt F)) (x4 : (⟨S8192x2, .i32⟩ : BufTy).Contents (Elt F)) : (⟨S8192x32, .f32⟩ : BufTy).Contents (Elt F) :=
  Host.gather gather_S20000x32_S8192x1_S8192x32_1_0_n_n_0_1_132 x2 (wrapped (col ![0, 0] slices_S8192x2_S8192x1_0_0 x4))

/-- The picked target features. -/
def tgtFeat (x3 : (⟨S20000x32, .f32⟩ : BufTy).Contents (Elt F)) (x4 : (⟨S8192x2, .i32⟩ : BufTy).Contents (Elt F)) : (⟨S8192x32, .f32⟩ : BufTy).Contents (Elt F) :=
  Host.gather gather_S20000x32_S8192x1_S8192x32_1_0_n_n_0_1_132 x3 (wrapped (col ![0, 1] slices_S8192x2_S8192x1_0_1 x4))

variable (m : (ℓ : Loc nD τ sig) → Buf (Elt F) ℓ)

/-- The call's first operand is the moved source points. -/
theorem V_srcPts (c : Dev nD) :
    V m c main_v36 = srcPts (m ((c : Thread nD τ).loc main_arg0)) (m ((c : Thread nD τ).loc main_arg4))
      (m ((c : Thread nD τ).loc main_arg5)) (m ((c : Thread nD τ).loc main_arg6)) := by
  dsimp only [V, V0]
  simp only [hostOps0, List.flatten_cons, List.flatten_nil, List.append_nil, List.cons_append, List.nil_append]
  after_results_simp
  rfl

/-- The call's second operand is the picked target points. -/
theorem V_tgtPts (c : Dev nD) :
    V m c main_v17 = tgtPts (m ((c : Thread nD τ).loc main_arg1)) (m ((c : Thread nD τ).loc main_arg4)) := by
  dsimp only [V, V0]
  simp only [hostOps0, List.flatten_cons, List.flatten_nil, List.append_nil, List.cons_append, List.nil_append]
  after_results_simp
  rfl

/-- The call's third operand is the picked source features. -/
theorem V_srcFeat (c : Dev nD) :
    V m c main_v24 = srcFeat (m ((c : Thread nD τ).loc main_arg2)) (m ((c : Thread nD τ).loc main_arg4)) := by
  dsimp only [V, V0]
  simp only [hostOps0, List.flatten_cons, List.flatten_nil, List.append_nil, List.cons_append, List.nil_append]
  after_results_simp
  rfl

/-- The call's fourth operand is the picked target features. -/
theorem V_tgtFeat (c : Dev nD) :
    V m c main_v31 = tgtFeat (m ((c : Thread nD τ).loc main_arg3)) (m ((c : Thread nD τ).loc main_arg4)) := by
  dsimp only [V, V0]
  simp only [hostOps0, List.flatten_cons, List.flatten_nil, List.append_nil, List.cons_append, List.nil_append]
  after_results_simp
  rfl

end Cert.KernelIdeal.HostVal

end
-- ==== Proof.KernelValue.lean ====
import proofs.«154625_j70995809402955_1_alg».proof.Proof.KernelAccum
import proofs.«154625_j70995809402955_1_alg».proof.Proof.KernelHost
import Idealize.ShloMosaic.Lib.StableHlo.Run

/-! # The kernel program's result

After the call the program subtracts the thresholds, clamps at zero and averages.  Applied to the two result
arrays of the call this is the two hinges' means over the row maxima and the capped row minima of the four
arrays the host lines picked. -/

noncomputable section

namespace Cert.KernelIdeal.Value

open Cert.KernelIdeal Cert.KernelIdeal.Gen Cert.KernelIdeal.Accum Cert.KernelIdeal.HostVal Cert.Hcl
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The lines after the call, applied to the call's two result arrays. -/
theorem result_eq (c : Dev nD) :
    Pipeline.afterTail₀ cfgs (dats m) 0 (V0 m) [hostOps1, hostOps1_1, hostOps1_2, hostOps1_3, hostOps1_4] c main_v48
      = meanPair Facts₀.reducesTo_S8192_S_d0 Facts₀.h_S_ (hingePos (fposK m c)) (hingeNeg (cnegK m c)) := by
  have h4 : Pipeline.withArrays (cfgs 0).spec c (V0 m c) (fun w => (dats m 0 c).arrAt w (cfgs 0).N) (Proc.devRef .tc main_v37_0)
      = fposK m c := (Pipeline.withArrays_arr spec0 launch0.win.arr_inj c _ _ 4).trans (final4 m c)
  have h5 : Pipeline.withArrays (cfgs 0).spec c (V0 m c) (fun w => (dats m 0 c).arrAt w (cfgs 0).N) (Proc.devRef .tc main_v37_1)
      = cnegK m c := (Pipeline.withArrays_arr spec0 launch0.win.arr_inj c _ _ 5).trans (final5 m c)
  unfold Pipeline.afterTail₀
  simp only [hostOps1, hostOps1_1, hostOps1_2, hostOps1_3, hostOps1_4, List.flatten_cons, List.flatten_nil, List.append_nil,
    List.cons_append, List.nil_append]
  after_results_simp
  rw [h4, h5]
  rfl

/-- The run, read: the result at the loss's two means over the arrays the call read, the arguments unchanged. -/
theorem run : θ_run defs (onTc (τ := τ) (main (F := Ideal))) ⟨m, fun _ => 0, ρ⟩ fun r => ∀ c : Dev nD,
      r.2.mem ((c.tc : Thread nD τ).loc main_v48)
        = meanPair Facts₀.reducesTo_S8192_S_d0 Facts₀.h_S_ (hingePos (fposK m c)) (hingeNeg (cnegK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v48 (Pipeline.mem_restRefs_of main_v48 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

/-- The four arrays the call read are the host lines' picks of the arguments. -/
theorem arrA_eq (c : Dev nD) : arrA m c = srcPts (m ((c : Thread nD τ).loc main_arg0)) (m ((c : Thread nD τ).loc main_arg4))
    (m ((c : Thread nD τ).loc main_arg5)) (m ((c : Thread nD τ).loc main_arg6)) := V_srcPts m c
theorem arrB_eq (c : Dev nD) : arrB m c = tgtPts (m ((c : Thread nD τ).loc main_arg1)) (m ((c : Thread nD τ).loc main_arg4)) :=
  V_tgtPts m c
theorem arrFA_eq (c : Dev nD) : arrFA m c = srcFeat (m ((c : Thread nD τ).loc main_arg2)) (m ((c : Thread nD τ).loc main_arg4)) :=
  V_srcFeat m c
theorem arrFB_eq (c : Dev nD) : arrFB m c = tgtFeat (m ((c : Thread nD τ).loc main_arg3)) (m ((c : Thread nD τ).loc main_arg4)) :=
  V_tgtFeat m c

end Cert.KernelIdeal.Value

end
-- ==== Proof.RefDist.lean ====
import proofs.«154625_j70995809402955_1_alg».proof.Proof.Gen.ReferenceIdeal.Read
import proofs.«154625_j70995809402955_1_alg».proof.Proof.SpecLaws
import Idealize.ShloMosaic.PureOps.Ideal.Laws
import Idealize.ShloMosaic.Lib.Pipeline.Value
import Idealize.ShloMosaic.Lib.ValueIdx

/-! # The reference's two distance matrices, entry by entry

The reference forms all 8192 × 8192 distances at once.  Entry `(r, c)` of each matrix is the distance of row
`r` of the selected source array from row `c` of the selected target array: the reference doubles the source row
before the inner product where the specification doubles the product, and the factor two moves across. -/

noncomputable section

namespace Cert.RefDist

open Cert.ReferenceIdeal Cert.ReferenceIdeal.Read Cert.Hcl
open Idealize.ShloMosaic Idealize.ShloMosaic.ValueIdx

/-- Entry `(r, c)` of the point-distance matrix. -/
theorem pts_dist_apply (x0 x1 : (⟨S20000x3, .f32⟩ : BufTy).Contents (Elt Ideal)) (x4 : (⟨S8192x2, .i32⟩ : BufTy).Contents (Elt Ideal)) (x5 : (⟨S3x3, .f32⟩ : BufTy).Contents (Elt Ideal))
    (x6 : (⟨S3x1, .f32⟩ : BufTy).Contents (Elt Ideal)) (r c : Fin 8192) :
    (val_main_v55 (F := Ideal) x0 x1 x4 x5 x6 : S8192x8192.Idx → EReal) (ix2 r c)
      = dist (val_main_v15 (F := Ideal) x0 x4 x5 x6 : Arr 8192 3) (val_main_v22 (F := Ideal) x1 x4 : Arr 8192 3) r c := by
  -- read every operation of the chain at the entry, down to the two selected arrays
  simp only [val_main_v55_apply, val_main_v54_apply, val_main_v52_apply, val_main_v53_apply, val_main_v51_apply,
    val_main_v50_apply, val_main_v45_apply, val_main_v49_apply, val_main_v43_apply, val_main_v44_apply,
    val_main_v39_apply, val_main_v42_apply, val_main_v38_apply, val_main_v41_apply, val_main_v47_apply,
    val_main_v48_apply, val_main_v46_apply, val_main_v37_apply, val_main_v40_apply, val_main_cst_apply,
    val_main_cst_7_apply, val_main_cst_8_apply, val_main_cst_9_apply, val_main_cst_10_apply]
  -- the composed index maps land on row `r` of the source and row `c` of the target
  have e1 : ∀ k : Fin 3, idx_main_v38 (idx_main_v39 (idx_main_v43 (ix2 r c))) k = ix2 r k := fun k =>
    funext fun a => Fin.ext (by match a with | ⟨0, _⟩ => rfl | ⟨1, _⟩ => rfl)
  have e2 : ∀ k : Fin 3, idx_main_v41 (idx_main_v42 (idx_main_v44 (ix2 r c))) k = ix2 c k := fun k =>
    funext fun a => Fin.ext (by match a with | ⟨0, _⟩ => rfl | ⟨1, _⟩ => rfl)
  have e3 : ∀ k : Fin 3, lidx_main_v49 (ix2 r c) k = ix2 r k := fun k =>
    funext fun a => Fin.ext (by match a with | ⟨0, _⟩ => rfl | ⟨1, _⟩ => rfl)
  have e4 : ∀ k : Fin 3, idx_main_v48 (ridx_main_v49 (ix2 r c) k) = ix2 c k := fun k =>
    funext fun a => Fin.ext (by match a with | ⟨0, _⟩ => rfl | ⟨1, _⟩ => rfl)
  -- the operations are the extended reals' own; each row sum starts from zero
  simp only [e1, e2, e3, e4, Ideal.hostUnary_sqrt_def, Ideal.addf_def, Ideal.subf_def, Ideal.mulf_def,
    Ideal.maximumf_def, Ideal.ofBits_def, Ideal.ofBits_zero_f32, zero_add]
  -- the factor two moves from the inner product onto the source row
  unfold Hcl.dist
  rw [two_mul_dotp, cZero_eq]
  rfl

/-- Entry `(r, c)` of the feature-distance matrix. -/
theorem feat_dist_apply (x2 x3 : (⟨S20000x32, .f32⟩ : BufTy).Contents (Elt Ideal)) (x4 : (⟨S8192x2, .i32⟩ : BufTy).Contents (Elt Ideal)) (r c : Fin 8192) :
    (val_main_v74 (F := Ideal) x2 x3 x4 : S8192x8192.Idx → EReal) (ix2 r c)
      = dist (val_main_v29 (F := Ideal) x2 x4 : Arr 8192 32) (val_main_v36 (F := Ideal) x3 x4 : Arr 8192 32) r c := by
  -- read every operation of the chain at the entry, down to the two selected arrays
  simp only [val_main_v74_apply, val_main_v73_apply, val_main_v71_apply, val_main_v72_apply, val_main_v70_apply,
    val_main_v69_apply, val_main_v64_apply, val_main_v68_apply, val_main_v62_apply, val_main_v63_apply,
    val_main_v58_apply, val_main_v61_apply, val_main_v57_apply, val_main_v60_apply, val_main_v66_apply,
    val_main_v67_apply, val_main_v65_apply, val_main_v56_apply, val_main_v59_apply, val_main_cst_11_apply,
    val_main_cst_12_apply, val_main_cst_13_apply, val_main_cst_14_apply, val_main_cst_15_apply]
  -- the composed index maps land on row `r` of the source and row `c` of the target
  have e1 : ∀ k : Fin 32, idx_main_v57 (idx_main_v58 (idx_main_v62 (ix2 r c))) k = ix2 r k := fun k =>
    funext fun a => Fin.ext (by match a with | ⟨0, _⟩ => rfl | ⟨1, _⟩ => rfl)
  have e2 : ∀ k : Fin 32, idx_main_v60 (idx_main_v61 (idx_main_v63 (ix2 r c))) k = ix2 c k := fun k =>
    funext fun a => Fin.ext (by match a with | ⟨0, _⟩ => rfl | ⟨1, _⟩ => rfl)
  have e3 : ∀ k : Fin 32, lidx_main_v68 (ix2 r c) k = ix2 r k := fun k =>
    funext fun a => Fin.ext (by match a with | ⟨0, _⟩ => rfl | ⟨1, _⟩ => rfl)
  have e4 : ∀ k : Fin 32, idx_main_v67 (ridx_main_v68 (ix2 r c) k) = ix2 c k := fun k =>
    funext fun a => Fin.ext (by match a with | ⟨0, _⟩ => rfl | ⟨1, _⟩ => rfl)
  -- the operations are the extended reals' own; each row sum starts from zero
  simp only [e1, e2, e3, e4, Ideal.hostUnary_sqrt_def, Ideal.addf_def, Ideal.subf_def, Ideal.mulf_def,
    Ideal.maximumf_def, Ideal.ofBits_def, Ideal.ofBits_zero_f32, zero_add]
  -- the factor two moves from the inner product onto the source row
  unfold Hcl.dist
  rw [two_mul_dotp, cZero_eq]
  rfl

end Cert.RefDist

end
-- ==== Proof.RefValue.lean ====
import proofs.«154625_j70995809402955_1_alg».proof.Proof.RefDist
import Idealize.ShloMosaic.PureOps.Reduce

/-! # The reference's result is the loss of its four selected arrays

From the two distance matrices the reference masks, reduces each row by a maximum and by a minimum, applies the
two hinges and averages: the specification's loss, read off the reference's own operations. -/

noncomputable section

namespace Cert.RefValue

open Cert.ReferenceIdeal Cert.ReferenceIdeal.Read Cert.Hcl
open Idealize.ShloMosaic Idealize.ShloMosaic.ValueIdx

/-! ## A row of the square matrix, column by column -/

/-- The shape fact of a reduction along the columns, in the form that names the inserted coordinate. -/
private theorem reduces_cols : S8192x8192.Reduces [1] S8192 := by decide

/-- The row index `r` with the column `c` inserted is the matrix index `(r, c)`. -/
private theorem lift_cols (r c : Fin 8192) : reduces_cols.lift (ix1 r) c = ix2 r c := by
  funext a
  match a with
  | ⟨0, _⟩ => exact Fin.ext rfl
  | ⟨1, _⟩ => exact Fin.ext rfl

/-- The word of the maximum's initial value is `-∞`. -/
private theorem negInf_eq : Ideal.ofBits .f32 0xFF800000#32 = (⊥ : EReal) := by
  simp [Ideal.ofBits, Ideal.ieee]

/-- The word of the minimum's initial value is `+∞`. -/
private theorem posInf_eq : Ideal.ofBits .f32 0x7F800000#32 = (⊤ : EReal) := by
  simp [Ideal.ofBits, Ideal.ieee]

/-- Row `r` of the maximum-reduction: the maximum, from `-∞`, of the masked feature distances over the columns. -/
private theorem rowMax_apply (x0 x1 : (⟨S20000x3, .f32⟩ : BufTy).Contents (Elt Ideal)) (x2 x3 : (⟨S20000x32, .f32⟩ : BufTy).Contents (Elt Ideal)) (x4 : (⟨S8192x2, .i32⟩ : BufTy).Contents (Elt Ideal))
    (x5 : (⟨S3x3, .f32⟩ : BufTy).Contents (Elt Ideal)) (x6 : (⟨S3x1, .f32⟩ : BufTy).Contents (Elt Ideal)) (r : Fin 8192) :
    (val_main_v81 (F := Ideal) x0 x1 x2 x3 x4 x5 x6 : Row 8192) (ix1 r)
      = (Finset.univ : Finset (Fin 8192)).fold max ⊥
          (fun c => (val_main_v80 (F := Ideal) x0 x1 x2 x3 x4 x5 x6 : S8192x8192.Idx → EReal) (ix2 r c)) := by
  unfold val_main_v81
  rw [Host.reduce_eq_fold_single FloatOps.maximumf _ _ Gen.reducesTo_S8192x8192_S8192_d1 reduces_cols Gen.h_S_ (ix1 r)]
  have hf : ((val_main_v80 (F := Ideal) x0 x1 x2 x3 x4 x5 x6 : S8192x8192.Idx → EReal) ∘ reduces_cols.lift (ix1 r))
      = fun c : Fin 8192 => (val_main_v80 (F := Ideal) x0 x1 x2 x3 x4 x5 x6 : S8192x8192.Idx → EReal) (ix2 r c) := by
    funext c
    exact congrArg (val_main_v80 (F := Ideal) x0 x1 x2 x3 x4 x5 x6 : S8192x8192.Idx → EReal) (lift_cols r c)
  exact (congrArg₂ (fun (b : EReal) (f : Fin 8192 → EReal) => (Finset.univ : Finset (Fin 8192)).fold max b f) negInf_eq hf)

/-- Row `r` of the minimum-reduction: the minimum, from `+∞`, of the selected feature distances over the columns. -/
private theorem rowMin_apply (x0 x1 : (⟨S20000x3, .f32⟩ : BufTy).Contents (Elt Ideal)) (x2 x3 : (⟨S20000x32, .f32⟩ : BufTy).Contents (Elt Ideal)) (x4 : (⟨S8192x2, .i32⟩ : BufTy).Contents (Elt Ideal))
    (x5 : (⟨S3x3, .f32⟩ : BufTy).Contents (Elt Ideal)) (x6 : (⟨S3x1, .f32⟩ : BufTy).Contents (Elt Ideal)) (r : Fin 8192) :
    (val_main_v83 (F := Ideal) x0 x1 x2 x3 x4 x5 x6 : Row 8192) (ix1 r)
      = (Finset.univ : Finset (Fin 8192)).fold min ⊤
          (fun c => (val_main_v82 (F := Ideal) x0 x1 x2 x3 x4 x5 x6 : S8192x8192.Idx → EReal) (ix2 r c)) := by
  unfold val_main_v83
  rw [Host.reduce_eq_fold_single FloatOps.minimumf _ _ Gen.reducesTo_S8192x8192_S8192_d1 reduces_cols Gen.h_S_ (ix1 r)]
  have hf : ((val_main_v82 (F := Ideal) x0 x1 x2 x3 x4 x5 x6 : S8192x8192.Idx → EReal) ∘ reduces_cols.lift (ix1 r))
      = fun c : Fin 8192 => (val_main_v82 (F := Ideal) x0 x1 x2 x3 x4 x5 x6 : S8192x8192.Idx → EReal) (ix2 r c) := by
    funext c
    exact congrArg (val_main_v82 (F := Ideal) x0 x1 x2 x3 x4 x5 x6 : S8192x8192.Idx → EReal) (lift_cols r c)
  exact (congrArg₂ (fun (b : EReal) (f : Fin 8192 → EReal) => (Finset.univ : Finset (Fin 8192)).fold min b f) posInf_eq hf)

/-! ## The entries the two reductions run over -/

/-- Entry `(r, c)` of the masked matrix: the feature distance times the indicator that the points are close. -/
private theorem pos_entry (x0 x1 : (⟨S20000x3, .f32⟩ : BufTy).Contents (Elt Ideal)) (x2 x3 : (⟨S20000x32, .f32⟩ : BufTy).Contents (Elt Ideal)) (x4 : (⟨S8192x2, .i32⟩ : BufTy).Contents (Elt Ideal))
    (x5 : (⟨S3x3, .f32⟩ : BufTy).Contents (Elt Ideal)) (x6 : (⟨S3x1, .f32⟩ : BufTy).Contents (Elt Ideal)) (r c : Fin 8192) :
    (val_main_v80 (F := Ideal) x0 x1 x2 x3 x4 x5 x6 : S8192x8192.Idx → EReal) (ix2 r c)
      = posTerm (val_main_v15 (F := Ideal) x0 x4 x5 x6 : Arr 8192 3) (val_main_v22 (F := Ideal) x1 x4 : Arr 8192 3)
          (val_main_v29 (F := Ideal) x2 x4 : Arr 8192 32) (val_main_v36 (F := Ideal) x3 x4 : Arr 8192 32) r c := by
  rw [val_main_v80_apply, val_main_v79_apply, val_main_v76_apply, val_main_v75_apply, val_main_cst_16_apply,
    RefDist.feat_dist_apply, RefDist.pts_dist_apply]
  rfl

/-- Entry `(r, c)` of the selected matrix: the feature distance where the points are far apart, else the large
    constant. -/
private theorem neg_entry (x0 x1 : (⟨S20000x3, .f32⟩ : BufTy).Contents (Elt Ideal)) (x2 x3 : (⟨S20000x32, .f32⟩ : BufTy).Contents (Elt Ideal)) (x4 : (⟨S8192x2, .i32⟩ : BufTy).Contents (Elt Ideal))
    (x5 : (⟨S3x3, .f32⟩ : BufTy).Contents (Elt Ideal)) (x6 : (⟨S3x1, .f32⟩ : BufTy).Contents (Elt Ideal)) (r c : Fin 8192) :
    (val_main_v82 (F := Ideal) x0 x1 x2 x3 x4 x5 x6 : S8192x8192.Idx → EReal) (ix2 r c)
      = negTerm (val_main_v15 (F := Ideal) x0 x4 x5 x6 : Arr 8192 3) (val_main_v22 (F := Ideal) x1 x4 : Arr 8192 3)
          (val_main_v29 (F := Ideal) x2 x4 : Arr 8192 32) (val_main_v36 (F := Ideal) x3 x4 : Arr 8192 32) r c := by
  rw [val_main_v82_apply, val_main_v78_apply, val_main_v77_apply, val_main_cst_17_apply, val_main_call0_v1_apply,
    val_main_call0_v0_apply, val_main_cst_19_apply, RefDist.feat_dist_apply, RefDist.pts_dist_apply]
  rfl

/-! ## The hinges and the means -/

/-- The clamped difference of the row maxima and the threshold is the positive hinge. -/
private theorem hingePos_eq (x0 x1 : (⟨S20000x3, .f32⟩ : BufTy).Contents (Elt Ideal)) (x2 x3 : (⟨S20000x32, .f32⟩ : BufTy).Contents (Elt Ideal)) (x4 : (⟨S8192x2, .i32⟩ : BufTy).Contents (Elt Ideal))
    (x5 : (⟨S3x3, .f32⟩ : BufTy).Contents (Elt Ideal)) (x6 : (⟨S3x1, .f32⟩ : BufTy).Contents (Elt Ideal)) :
    (val_main_v86 (F := Ideal) x0 x1 x2 x3 x4 x5 x6 : Row 8192) = hingePos (val_main_v81 (F := Ideal) x0 x1 x2 x3 x4 x5 x6 : Row 8192) := by
  funext i
  rw [val_main_v86_apply, val_main_v85_apply, val_main_v84_apply, val_main_cst_21_apply, val_main_call1_v0_apply,
    val_main_call1_cst_apply]
  rfl

/-- The clamped difference of the threshold and the row minima is the negative hinge. -/
private theorem hingeNeg_eq (x0 x1 : (⟨S20000x3, .f32⟩ : BufTy).Contents (Elt Ideal)) (x2 x3 : (⟨S20000x32, .f32⟩ : BufTy).Contents (Elt Ideal)) (x4 : (⟨S8192x2, .i32⟩ : BufTy).Contents (Elt Ideal))
    (x5 : (⟨S3x3, .f32⟩ : BufTy).Contents (Elt Ideal)) (x6 : (⟨S3x1, .f32⟩ : BufTy).Contents (Elt Ideal)) :
    (val_main_v89 (F := Ideal) x0 x1 x2 x3 x4 x5 x6 : Row 8192) = hingeNeg (val_main_v83 (F := Ideal) x0 x1 x2 x3 x4 x5 x6 : Row 8192) := by
  funext i
  rw [val_main_v89_apply, val_main_v88_apply, val_main_v87_apply, val_main_cst_22_apply, val_main_call2_v0_apply,
    val_main_call2_cst_apply]
  rfl

/-- The last five operations are the two means and their sum. -/
private theorem tail_eq (x0 x1 : (⟨S20000x3, .f32⟩ : BufTy).Contents (Elt Ideal)) (x2 x3 : (⟨S20000x32, .f32⟩ : BufTy).Contents (Elt Ideal)) (x4 : (⟨S8192x2, .i32⟩ : BufTy).Contents (Elt Ideal))
    (x5 : (⟨S3x3, .f32⟩ : BufTy).Contents (Elt Ideal)) (x6 : (⟨S3x1, .f32⟩ : BufTy).Contents (Elt Ideal)) :
    (val_main_v94 (F := Ideal) x0 x1 x2 x3 x4 x5 x6 : Scal)
      = meanPair Facts₀.reducesTo_S8192_S_d0 Facts₀.h_S_ (val_main_v86 (F := Ideal) x0 x1 x2 x3 x4 x5 x6 : Row 8192)
          (val_main_v89 (F := Ideal) x0 x1 x2 x3 x4 x5 x6 : Row 8192) := by
  unfold val_main_v94 val_main_v91 val_main_v93 val_main_v90 val_main_v92 val_main_cst_23 val_main_cst_24
    val_main_cst_25 val_main_cst_26 meanPair
  rfl

/-- The reference's result, as the loss of the selected (and, for the source points, moved) arrays. -/
theorem ref_loss (x0 x1 : (⟨S20000x3, .f32⟩ : BufTy).Contents (Elt Ideal)) (x2 x3 : (⟨S20000x32, .f32⟩ : BufTy).Contents (Elt Ideal)) (x4 : (⟨S8192x2, .i32⟩ : BufTy).Contents (Elt Ideal))
    (x5 : (⟨S3x3, .f32⟩ : BufTy).Contents (Elt Ideal)) (x6 : (⟨S3x1, .f32⟩ : BufTy).Contents (Elt Ideal)) :
    (val_main_v94 (F := Ideal) x0 x1 x2 x3 x4 x5 x6 : Scal)
      = loss Facts₀.reducesTo_S8192_S_d0 Facts₀.h_S_
          (val_main_v15 (F := Ideal) x0 x4 x5 x6 : Arr 8192 3) (val_main_v22 (F := Ideal) x1 x4 : Arr 8192 3)
          (val_main_v29 (F := Ideal) x2 x4 : Arr 8192 32) (val_main_v36 (F := Ideal) x3 x4 : Arr 8192 32) := by
  have hP : (val_main_v81 (F := Ideal) x0 x1 x2 x3 x4 x5 x6 : Row 8192)
      = fpos (val_main_v15 (F := Ideal) x0 x4 x5 x6 : Arr 8192 3) (val_main_v22 (F := Ideal) x1 x4 : Arr 8192 3)
          (val_main_v29 (F := Ideal) x2 x4 : Arr 8192 32) (val_main_v36 (F := Ideal) x3 x4 : Arr 8192 32) := by
    funext i
    obtain ⟨r, rfl⟩ : ∃ r : Fin 8192, i = ix1 r := ⟨i 0, eq_ix1 (n := 8192) i⟩
    rw [rowMax_apply]
    unfold fpos
    exact congrArg (fun f : Fin 8192 → EReal => (Finset.univ : Finset (Fin 8192)).fold max ⊥ f)
      (funext fun c => pos_entry x0 x1 x2 x3 x4 x5 x6 r c)
  have hN : (val_main_v83 (F := Ideal) x0 x1 x2 x3 x4 x5 x6 : Row 8192)
      = cneg (val_main_v15 (F := Ideal) x0 x4 x5 x6 : Arr 8192 3) (val_main_v22 (F := Ideal) x1 x4 : Arr 8192 3)
          (val_main_v29 (F := Ideal) x2 x4 : Arr 8192 32) (val_main_v36 (F := Ideal) x3 x4 : Arr 8192 32) := by
    funext i
    obtain ⟨r, rfl⟩ : ∃ r : Fin 8192, i = ix1 r := ⟨i 0, eq_ix1 (n := 8192) i⟩
    rw [rowMin_apply]
    unfold cneg
    exact congrArg (fun f : Fin 8192 → EReal => (Finset.univ : Finset (Fin 8192)).fold min ⊤ f)
      (funext fun c => neg_entry x0 x1 x2 x3 x4 x5 x6 r c)
  rw [tail_eq, hingePos_eq, hingeNeg_eq, hP, hN]
  rfl

end Cert.RefValue

end
-- ==== Proof.Select.lean ====
import proofs.«154625_j70995809402955_1_alg».proof.Proof.KernelHost
import proofs.«154625_j70995809402955_1_alg».proof.Proof.Gen.ReferenceIdeal.Read
import proofs.«154625_j70995809402955_1_alg».proof.Proof.Spec
import Idealize.ShloMosaic.PureOps.Ideal.Laws
import Idealize.ShloMosaic.Lib.Pipeline.Value
import Idealize.ShloMosaic.Lib.ValueIdx

/-! # Picking rows commutes with moving them

The kernel picks the source points' rows and then rotates and shifts the picked rows; the reference rotates and
shifts the whole table and then picks.  Picking a row looks only at the index, never at the table's values, and
the move acts on each row by itself, so the two orders give the same array.  The other three arrays are picked
the same way on both sides. -/

noncomputable section

namespace Cert.Select

open Cert.Hcl
open Idealize.ShloMosaic Idealize.ShloMosaic.ValueIdx

/-! ## Which row a pick reads -/

/-- The row a pick reads is fixed by the result's row alone. -/
private theorem pick_row {w : Nat} (idx : IVec Cert.KernelIdeal.S8192x1 w) (j j' : Cert.KernelIdeal.S8192x3.Idx) (h : j 0 = j' 0) :
    Cert.KernelIdeal.gather_S20000x3_S8192x1_S8192x3_1_0_n_n_0_1_13.operandIdx j idx 0 = Cert.KernelIdeal.gather_S20000x3_S8192x1_S8192x3_1_0_n_n_0_1_13.operandIdx j' idx 0 := by
  have hsi : ∀ c, Cert.KernelIdeal.gather_S20000x3_S8192x1_S8192x3_1_0_n_n_0_1_13.siIdx j c = Cert.KernelIdeal.gather_S20000x3_S8192x1_S8192x3_1_0_n_n_0_1_13.siIdx j' c := by
    intro c
    funext b
    match b with
    | ⟨0, _⟩ => exact Fin.ext (by show (j 0).val = (j' 0).val; rw [h])
    | ⟨1, _⟩ => rfl
  have hst : Cert.KernelIdeal.gather_S20000x3_S8192x1_S8192x3_1_0_n_n_0_1_13.start j idx 0 = Cert.KernelIdeal.gather_S20000x3_S8192x1_S8192x3_1_0_n_n_0_1_13.start j' idx 0 := by
    unfold GatherDims.start
    simp only [hsi]
  have hb : ∀ i : Cert.KernelIdeal.S8192x3.Idx, Cert.KernelIdeal.gather_S20000x3_S8192x1_S8192x3_1_0_n_n_0_1_13.batchCoord i 0 = 0 := fun i =>
    GatherDims.batchCoord_eq_zero _ _ _ (show (0 : Fin Cert.KernelIdeal.S20000x3.rank) ∉ Cert.KernelIdeal.gather_S20000x3_S8192x1_S8192x3_1_0_n_n_0_1_13.operandBatchingDims by decide)
  have ho : ∀ i : Cert.KernelIdeal.S8192x3.Idx, Cert.KernelIdeal.gather_S20000x3_S8192x1_S8192x3_1_0_n_n_0_1_13.offCoord i 0 = 0 := fun i =>
    GatherDims.offCoord_eq_zero _ _ _ (show (0 : Fin Cert.KernelIdeal.S20000x3.rank) ∉ Cert.KernelIdeal.gather_S20000x3_S8192x1_S8192x3_1_0_n_n_0_1_13.sKept by decide)
  apply Fin.ext
  show Cert.KernelIdeal.gather_S20000x3_S8192x1_S8192x3_1_0_n_n_0_1_13.start j idx 0 + Cert.KernelIdeal.gather_S20000x3_S8192x1_S8192x3_1_0_n_n_0_1_13.batchCoord j 0 + Cert.KernelIdeal.gather_S20000x3_S8192x1_S8192x3_1_0_n_n_0_1_13.offCoord j 0
    = Cert.KernelIdeal.gather_S20000x3_S8192x1_S8192x3_1_0_n_n_0_1_13.start j' idx 0 + Cert.KernelIdeal.gather_S20000x3_S8192x1_S8192x3_1_0_n_n_0_1_13.batchCoord j' 0 + Cert.KernelIdeal.gather_S20000x3_S8192x1_S8192x3_1_0_n_n_0_1_13.offCoord j' 0
  rw [hb, hb, ho, ho, hst]

/-- The column a pick reads is the result's column. -/
private theorem pick_col {w : Nat} (idx : IVec Cert.KernelIdeal.S8192x1 w) (j : Cert.KernelIdeal.S8192x3.Idx) :
    (Cert.KernelIdeal.gather_S20000x3_S8192x1_S8192x3_1_0_n_n_0_1_13.operandIdx j idx 1).val = (j 1).val := by
  show Cert.KernelIdeal.gather_S20000x3_S8192x1_S8192x3_1_0_n_n_0_1_13.start j idx 1 + Cert.KernelIdeal.gather_S20000x3_S8192x1_S8192x3_1_0_n_n_0_1_13.batchCoord j 1 + Cert.KernelIdeal.gather_S20000x3_S8192x1_S8192x3_1_0_n_n_0_1_13.offCoord j 1 = (j 1).val
  have hs : Cert.KernelIdeal.gather_S20000x3_S8192x1_S8192x3_1_0_n_n_0_1_13.start j idx 1 = 0 := by
    unfold GatherDims.start
    rw [dif_neg (show (1 : Fin Cert.KernelIdeal.S20000x3.rank) ∉ Cert.KernelIdeal.gather_S20000x3_S8192x1_S8192x3_1_0_n_n_0_1_13.startIndexMap by decide)]
  have hb : Cert.KernelIdeal.gather_S20000x3_S8192x1_S8192x3_1_0_n_n_0_1_13.batchCoord j 1 = 0 :=
    GatherDims.batchCoord_eq_zero _ _ _ (show (1 : Fin Cert.KernelIdeal.S20000x3.rank) ∉ Cert.KernelIdeal.gather_S20000x3_S8192x1_S8192x3_1_0_n_n_0_1_13.operandBatchingDims by decide)
  have ho : Cert.KernelIdeal.gather_S20000x3_S8192x1_S8192x3_1_0_n_n_0_1_13.offCoord j 1 = (j 1).val := by
    unfold GatherDims.offCoord
    rw [dif_pos (show (1 : Fin Cert.KernelIdeal.S20000x3.rank) ∈ Cert.KernelIdeal.gather_S20000x3_S8192x1_S8192x3_1_0_n_n_0_1_13.sKept by decide)]
    rfl
  rw [hs, hb, ho]; omega

/-! ## The kernel's product of the picked rows with the rotation, read at an index -/

private theorem lhsK_0 (i : Cert.KernelIdeal.S8192x3.Idx) (q : Cert.KernelIdeal.dot_S8192x3_S3x3_S8192x3_1_0_0_1_n_n.contr.Idx) :
    (Cert.KernelIdeal.dot_S8192x3_S3x3_S8192x3_1_0_0_1_n_n.lhsIdx i q 0).val = (i 0).val := by
  unfold DotDims.lhsIdx
  rw [dif_neg (show ¬(0 : Fin Cert.KernelIdeal.S8192x3.rank) ∈ Cert.KernelIdeal.dot_S8192x3_S3x3_S8192x3_1_0_0_1_n_n.lhsBatch by decide), dif_pos (show (0 : Fin Cert.KernelIdeal.S8192x3.rank) ∈ Cert.KernelIdeal.dot_S8192x3_S3x3_S8192x3_1_0_0_1_n_n.lhsNonContracting by decide)]
  rfl
private theorem lhsK_1 (i : Cert.KernelIdeal.S8192x3.Idx) (q : Cert.KernelIdeal.dot_S8192x3_S3x3_S8192x3_1_0_0_1_n_n.contr.Idx) :
    (Cert.KernelIdeal.dot_S8192x3_S3x3_S8192x3_1_0_0_1_n_n.lhsIdx i q 1).val = (q ⟨0, by decide⟩).val :=
  Cert.KernelIdeal.dot_S8192x3_S3x3_S8192x3_1_0_0_1_n_n.lhsIdx_val_of_single rfl i q
private theorem rhsK_0 (i : Cert.KernelIdeal.S8192x3.Idx) (q : Cert.KernelIdeal.dot_S8192x3_S3x3_S8192x3_1_0_0_1_n_n.contr.Idx) :
    (Cert.KernelIdeal.dot_S8192x3_S3x3_S8192x3_1_0_0_1_n_n.rhsIdx i q 0).val = (q ⟨0, by decide⟩).val :=
  Cert.KernelIdeal.dot_S8192x3_S3x3_S8192x3_1_0_0_1_n_n.rhsIdx_val_of_single rfl i q
private theorem rhsK_1 (i : Cert.KernelIdeal.S8192x3.Idx) (q : Cert.KernelIdeal.dot_S8192x3_S3x3_S8192x3_1_0_0_1_n_n.contr.Idx) :
    (Cert.KernelIdeal.dot_S8192x3_S3x3_S8192x3_1_0_0_1_n_n.rhsIdx i q 1).val = (i 1).val := by
  unfold DotDims.rhsIdx
  rw [dif_neg (show ¬(1 : Fin Cert.KernelIdeal.S3x3.rank) ∈ Cert.KernelIdeal.dot_S8192x3_S3x3_S8192x3_1_0_0_1_n_n.rhsBatch by decide), dif_pos (show (1 : Fin Cert.KernelIdeal.S3x3.rank) ∈ Cert.KernelIdeal.dot_S8192x3_S3x3_S8192x3_1_0_0_1_n_n.rhsNonContracting by decide)]
  rfl

/-- The kernel's product at `(r, c)`: the sum over `k` of the left operand at `(r, k)` times the right at `(k, c)`. -/
private theorem dotK_apply (G : Cert.KernelIdeal.S8192x3.Idx → EReal) (T : Cert.KernelIdeal.S3x3.Idx → EReal) (i : Cert.KernelIdeal.S8192x3.Idx) :
    Host.dotGeneral (F := Ideal) (φ₁ := .f32) (φ₂ := .f32) Cert.KernelIdeal.dot_S8192x3_S3x3_S8192x3_1_0_0_1_n_n none G T i
      = ∑ k : Fin 3, G (ix2 (i 0) k) * T (ix2 k (i 1)) := by
  simp only [Host.dotGeneral]
  rw [Ideal.dotGeneral_apply, ← Equiv.sum_comp (ValueIdx.contrEquiv1 Cert.KernelIdeal.dot_S8192x3_S3x3_S8192x3_1_0_0_1_n_n 3 rfl rfl).symm]
  refine Finset.sum_congr rfl fun k _ => ?_
  have hk := ValueIdx.contrEquiv1_symm_val Cert.KernelIdeal.dot_S8192x3_S3x3_S8192x3_1_0_0_1_n_n 3 rfl rfl k
  have el : Cert.KernelIdeal.dot_S8192x3_S3x3_S8192x3_1_0_0_1_n_n.lhsIdx i ((ValueIdx.contrEquiv1 Cert.KernelIdeal.dot_S8192x3_S3x3_S8192x3_1_0_0_1_n_n 3 rfl rfl).symm k) = ix2 (i 0) k := funext fun a => Fin.ext (by
    match a with
    | ⟨0, _⟩ => exact lhsK_0 _ _
    | ⟨1, _⟩ => exact (lhsK_1 _ _).trans hk)
  have er : Cert.KernelIdeal.dot_S8192x3_S3x3_S8192x3_1_0_0_1_n_n.rhsIdx i ((ValueIdx.contrEquiv1 Cert.KernelIdeal.dot_S8192x3_S3x3_S8192x3_1_0_0_1_n_n 3 rfl rfl).symm k) = ix2 k (i 1) := funext fun a => Fin.ext (by
    match a with
    | ⟨0, _⟩ => exact (rhsK_0 _ _).trans hk
    | ⟨1, _⟩ => exact rhsK_1 _ _)
  rw [el, er]
  rfl

/-! ## The four arrays -/

/-- The moved picked source points are the picked moved source points. -/
theorem srcPts_eq (x0 : (⟨Cert.KernelIdeal.S20000x3, .f32⟩ : BufTy).Contents (Elt Ideal)) (x4 : (⟨Cert.KernelIdeal.S8192x2, .i32⟩ : BufTy).Contents (Elt Ideal)) (x5 : (⟨Cert.KernelIdeal.S3x3, .f32⟩ : BufTy).Contents (Elt Ideal))
    (x6 : (⟨Cert.KernelIdeal.S3x1, .f32⟩ : BufTy).Contents (Elt Ideal)) :
    (Cert.KernelIdeal.HostVal.srcPts (F := Ideal) x0 x4 x5 x6 : Arr 8192 3)
      = (Cert.ReferenceIdeal.Read.val_main_v15 (F := Ideal) x0 x4 x5 x6 : Arr 8192 3) := by
  funext j
  -- both sides pick at the same index column
  have hidx : Cert.KernelIdeal.HostVal.wrapped (F := Ideal)
      (Cert.KernelIdeal.HostVal.col ![0, 0] Cert.KernelIdeal.Gen.slices_S8192x2_S8192x1_0_0 x4)
      = Cert.ReferenceIdeal.Read.val_main_v14 (F := Ideal) x4 := rfl
  unfold Cert.KernelIdeal.HostVal.srcPts Cert.ReferenceIdeal.Read.val_main_v15
  rw [hidx]
  generalize Cert.ReferenceIdeal.Read.val_main_v14 (F := Ideal) x4 = idx
  -- the reference's side, read at the picked index
  have hR : Host.gather Cert.ReferenceIdeal.gather_S20000x3_S8192x1_S8192x3_1_0_n_n_0_1_13 (Cert.ReferenceIdeal.Read.val_main_v4 (F := Ideal) x0 x5 x6) idx j
      = Cert.ReferenceIdeal.Read.val_main_v4 (F := Ideal) x0 x5 x6 (Cert.KernelIdeal.gather_S20000x3_S8192x1_S8192x3_1_0_n_n_0_1_13.operandIdx j idx) := rfl
  rw [hR, Cert.ReferenceIdeal.Read.val_main_v4_apply, Cert.ReferenceIdeal.Read.val_main_v3_apply, Cert.ReferenceIdeal.Read.val_main_v1_apply, Cert.ReferenceIdeal.Read.val_main_v2_apply]
  simp only [Cert.ReferenceIdeal.Read.val_main_v0_apply]
  -- the kernel's side
  rw [addf_apply, dotK_apply]
  show _ + _ = _ + _
  have hT5 : ∀ k : Fin 3, transpose Cert.KernelIdeal.S3x3 [1, 0] x5 Cert.KernelIdeal.Gen.transposes_S3x3_S3x3_1_0 (ix2 k (j 1)) = x5 (ix2 (j 1) k) := fun k =>
    transpose_apply [1, 0] x5 Cert.KernelIdeal.Gen.transposes_S3x3_S3x3_1_0 (ix2 k (j 1)) (ix2 (j 1) k) (fun b => match b with
      | ⟨0, _⟩ => rfl
      | ⟨1, _⟩ => rfl)
  have hB : broadcastInDim Cert.KernelIdeal.S8192x3 ![0, 1] Cert.KernelIdeal.Gen.bcast_S1x3_S8192x3_0_1
      (transpose Cert.KernelIdeal.S1x3 [1, 0] x6 Cert.KernelIdeal.Gen.transposes_S3x1_S1x3_1_0) j = x6 (ix2 (j 1) (0 : Fin 1)) := by
    rw [broadcastInDim_apply _ Cert.KernelIdeal.Gen.bcast_S1x3_S8192x3_0_1 _ j (ix2 (0 : Fin 1) (j 1)) (fun a => match a with
      | ⟨0, _⟩ => by show (0 : ℕ) = if (1 : Nat) = 1 then 0 else (j 0).val; rw [if_pos rfl]
      | ⟨1, _⟩ => by show (j 1).val = if (3 : Nat) = 1 then 0 else (j 1).val; rw [if_neg (by decide)])]
    exact transpose_apply [1, 0] x6 Cert.KernelIdeal.Gen.transposes_S3x1_S1x3_1_0 (ix2 (0 : Fin 1) (j 1)) (ix2 (j 1) (0 : Fin 1)) (fun b => match b with
      | ⟨0, _⟩ => rfl
      | ⟨1, _⟩ => rfl)
  rw [hB]
  congr 1
  · refine Finset.sum_congr rfl fun k _ => ?_
    rw [hT5 k, mul_comm]
    have e1 : ix2 (j 1) k = Cert.ReferenceIdeal.Read.lidx_main_v1 (Cert.ReferenceIdeal.Read.idx_main_v4 (Cert.KernelIdeal.gather_S20000x3_S8192x1_S8192x3_1_0_n_n_0_1_13.operandIdx j idx)) k := funext fun a => Fin.ext (by
      match a with
      | ⟨0, _⟩ => exact (pick_col idx j).symm
      | ⟨1, _⟩ => rfl)
    have e2 : Cert.KernelIdeal.gather_S20000x3_S8192x1_S8192x3_1_0_n_n_0_1_13.operandIdx (ix2 (j 0) k) idx
        = Cert.ReferenceIdeal.Read.idx_main_v0 (Cert.ReferenceIdeal.Read.ridx_main_v1 (Cert.ReferenceIdeal.Read.idx_main_v4 (Cert.KernelIdeal.gather_S20000x3_S8192x1_S8192x3_1_0_n_n_0_1_13.operandIdx j idx)) k) := funext fun a => Fin.ext (by
      match a with
      | ⟨0, _⟩ => exact congrArg Fin.val (pick_row idx (ix2 (j 0) k) j rfl)
      | ⟨1, _⟩ => exact pick_col idx (ix2 (j 0) k))
    exact congrArg₂ (· * ·) (congrArg x5 e1) (congrArg x0 e2)
  · refine congrArg x6 (funext fun a => Fin.ext ?_)
    match a with
    | ⟨0, _⟩ => exact (pick_col idx j).symm
    | ⟨1, _⟩ => rfl

/-- The picked target points agree. -/
theorem tgtPts_eq (x1 : (⟨Cert.KernelIdeal.S20000x3, .f32⟩ : BufTy).Contents (Elt Ideal)) (x4 : (⟨Cert.KernelIdeal.S8192x2, .i32⟩ : BufTy).Contents (Elt Ideal)) :
    (Cert.KernelIdeal.HostVal.tgtPts (F := Ideal) x1 x4 : Arr 8192 3)
      = (Cert.ReferenceIdeal.Read.val_main_v22 (F := Ideal) x1 x4 : Arr 8192 3) := by
  rfl

/-- The picked source features agree. -/
theorem srcFeat_eq (x2 : (⟨Cert.KernelIdeal.S20000x32, .f32⟩ : BufTy).Contents (Elt Ideal)) (x4 : (⟨Cert.KernelIdeal.S8192x2, .i32⟩ : BufTy).Contents (Elt Ideal)) :
    (Cert.KernelIdeal.HostVal.srcFeat (F := Ideal) x2 x4 : Arr 8192 32)
      = (Cert.ReferenceIdeal.Read.val_main_v29 (F := Ideal) x2 x4 : Arr 8192 32) := by
  rfl

/-- The picked target features agree. -/
theorem tgtFeat_eq (x3 : (⟨Cert.KernelIdeal.S20000x32, .f32⟩ : BufTy).Contents (Elt Ideal)) (x4 : (⟨Cert.KernelIdeal.S8192x2, .i32⟩ : BufTy).Contents (Elt Ideal)) :
    (Cert.KernelIdeal.HostVal.tgtFeat (F := Ideal) x3 x4 : Arr 8192 32)
      = (Cert.ReferenceIdeal.Read.val_main_v36 (F := Ideal) x3 x4 : Arr 8192 32) := by
  rfl

end Cert.Select

end
-- ==== Proof.lean ====
/- The certificate of a hardest-contrastive loss: for 8192 index pairs the source and target rows of two point
   tables and two feature tables are picked, the picked source points are rotated and shifted, and every source
   row is compared with every target row.  A row's furthest positive is the largest feature distance among the
   pairs whose points are close, its closest negative the smallest among the pairs whose points are far apart;
   the loss is the mean hinge of the one plus the mean hinge of the other.

   The kernel walks the 8192 × 8192 pairs in tiles of 1024 × 512, keeping a running maximum and a running minimum
   per source row, the minimum started at a large constant; the reference forms both distance matrices whole and
   reduces each row once, and moves the whole source table before it picks.  Over the extended reals the two agree:
   picking a row commutes with moving it, a factor two moves into an inner product, a maximum over all columns is
   the maximum of the tiles' maxima, and the cap on the minimum lies above the hinge's threshold, so it never
   changes the hinge.  The frames of the two kernel programs are the generated ones; the reference's frame is its
   generated run with the result dropped; the ideal pass rewrote nothing. -/
import proofs.«154625_j70995809402955_1_alg».proof.Defs
import proofs.«154625_j70995809402955_1_alg».proof.Proof.Gen.Kernel
import proofs.«154625_j70995809402955_1_alg».proof.Proof.Gen.Kernel.Skeleton
import proofs.«154625_j70995809402955_1_alg».proof.Proof.Gen.Kernel.Launch
import proofs.«154625_j70995809402955_1_alg».proof.Proof.Gen.Kernel.Points
import proofs.«154625_j70995809402955_1_alg».proof.Proof.Gen.Kernel.Frame
import proofs.«154625_j70995809402955_1_alg».proof.Proof.Gen.KernelIdeal
import proofs.«154625_j70995809402955_1_alg».proof.Proof.Gen.KernelIdeal.Skeleton
import proofs.«154625_j70995809402955_1_alg».proof.Proof.Gen.KernelIdeal.Launch
import proofs.«154625_j70995809402955_1_alg».proof.Proof.Gen.KernelIdeal.Points
import proofs.«154625_j70995809402955_1_alg».proof.Proof.Gen.KernelIdeal.Frame
import proofs.«154625_j70995809402955_1_alg».proof.Proof.Gen.ReferenceIdeal
import proofs.«154625_j70995809402955_1_alg».proof.Proof.Gen.ReferenceIdeal.Run
import proofs.«154625_j70995809402955_1_alg».proof.Proof.Gen.ReferenceIdeal.Read
import proofs.«154625_j70995809402955_1_alg».proof.Proof.Gen.Pre_finite_inputs
import proofs.«154625_j70995809402955_1_alg».proof.Proof.KernelValue
import proofs.«154625_j70995809402955_1_alg».proof.Proof.RefValue
import proofs.«154625_j70995809402955_1_alg».proof.Proof.Select
import Idealize.ShloMosaic.Adequacy
import Idealize.ShloMosaic.Init

noncomputable section

namespace Cert.Proof

open Idealize.ShloMosaic Idealize.SL.Sem Cert.Hcl

/-- The loss of the reference's four selected arrays, at the kernel program's arguments on core `c`. -/
def theLoss (m : (ℓ : Loc Cert.KernelIdeal.nD Cert.KernelIdeal.τ Cert.KernelIdeal.sig) → Buf (Elt Ideal) ℓ)
    (c : Dev Cert.KernelIdeal.nD) : Scal :=
  loss Cert.ReferenceIdeal.Facts₀.reducesTo_S8192_S_d0 Cert.ReferenceIdeal.Facts₀.h_S_
    (Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) : Arr 8192 3)
    (Cert.ReferenceIdeal.Read.val_main_v22 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) : Arr 8192 3)
    (Cert.ReferenceIdeal.Read.val_main_v29 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) : Arr 8192 32)
    (Cert.ReferenceIdeal.Read.val_main_v36 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) : Arr 8192 32)

/-- The kernel program's result is that loss: its four arrays are the reference's, and the cap on its minimum
    does not change the hinge. -/
theorem kernel_loss (m : (ℓ : Loc Cert.KernelIdeal.nD Cert.KernelIdeal.τ Cert.KernelIdeal.sig) → Buf (Elt Ideal) ℓ)
    (c : Dev Cert.KernelIdeal.nD) :
    meanPair Cert.KernelIdeal.Facts₀.reducesTo_S8192_S_d0 Cert.KernelIdeal.Facts₀.h_S_
        (hingePos (Cert.KernelIdeal.Accum.fposK m c)) (hingeNeg (Cert.KernelIdeal.Accum.cnegK m c))
      = theLoss m c := by
  have eA : (Cert.KernelIdeal.Accum.arrA m c : Arr 8192 3) = _ :=
    (Cert.KernelIdeal.Value.arrA_eq m c).trans (Cert.Select.srcPts_eq _ _ _ _)
  have eB : (Cert.KernelIdeal.Accum.arrB m c : Arr 8192 3) = _ :=
    (Cert.KernelIdeal.Value.arrB_eq m c).trans (Cert.Select.tgtPts_eq _ _)
  have eFA : (Cert.KernelIdeal.Accum.arrFA m c : Arr 8192 32) = _ :=
    (Cert.KernelIdeal.Value.arrFA_eq m c).trans (Cert.Select.srcFeat_eq _ _)
  have eFB : (Cert.KernelIdeal.Accum.arrFB m c : Arr 8192 32) = _ :=
    (Cert.KernelIdeal.Value.arrFB_eq m c).trans (Cert.Select.tgtFeat_eq _ _)
  show meanPair _ _ (hingePos (fpos (Cert.KernelIdeal.Accum.arrA m c) (Cert.KernelIdeal.Accum.arrB m c)
      (Cert.KernelIdeal.Accum.arrFA m c) (Cert.KernelIdeal.Accum.arrFB m c)))
    (hingeNeg (cnegCapped (Cert.KernelIdeal.Accum.arrA m c) (Cert.KernelIdeal.Accum.arrB m c)
      (Cert.KernelIdeal.Accum.arrFA m c) (Cert.KernelIdeal.Accum.arrFB m c))) = _
  rw [hingeNeg_capped, eA, eB, eFA, eFB]
  rfl

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree => ⟨fun c => theLoss m c,
    (θ_run Cert.KernelIdeal.defs _ _).mono (fun _ h c => ⟨(h c).1.trans (kernel_loss m c), (h c).2⟩)
      (Cert.KernelIdeal.Value.run m ρ),
    (θ_run Cert.ReferenceIdeal.defs _ _).mono (fun _ h c => ⟨by
        rw [(h c).1, Cert.ReferenceIdeal.Read.val_main_v94_eq, Cert.RefValue.ref_loss, (hagree c).1, (hagree c).2.1,
          (hagree c).2.2.1, (hagree c).2.2.2.1, (hagree c).2.2.2.2.1, (hagree c).2.2.2.2.2.1, (hagree c).2.2.2.2.2.2]
        rfl, (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
